-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel

variable [Facts]

def fn {F : FTy → Type} [FloatOps F] (main_arg0 : FVec F S32x8x256x256 .f32) (main_arg1 : FVec F S32x8x256x256 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  main_v8
-- ==== Kernel.lean ====
abbrev S32x8x256x256 : Shape := ⟨4, ![32, 8, 256, 256]⟩
abbrev S32x2 : Shape := ⟨2, ![32, 2]⟩
abbrev S16x8x32x256 : Shape := ⟨4, ![16, 8, 32, 256]⟩
abbrev S16x2 : Shape := ⟨2, ![16, 2]⟩
abbrev S16x1x32x256 : Shape := ⟨4, ![16, 1, 32, 256]⟩
abbrev S16x32x256 : Shape := ⟨3, ![16, 32, 256]⟩
abbrev S16x32 : Shape := ⟨2, ![16, 32]⟩
abbrev S16 : Shape := ⟨1, ![16]⟩
abbrev S16x3x32x256 : Shape := ⟨4, ![16, 3, 32, 256]⟩
abbrev S16x1 : Shape := ⟨2, ![16, 1]⟩
abbrev S_ : Shape := ⟨0, ![]⟩
abbrev S2 : Shape := ⟨1, ![2]⟩

abbrev nBuf : Space → Nat
  | .hbm => 42
  | .vmem => 12
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x2, .f32⟩
  | .hbm, ⟨3, _⟩ => ⟨S32x2, .f32⟩
  | .hbm, ⟨4, _⟩ => ⟨S32x2, .f32⟩
  | .hbm, ⟨5, _⟩ => ⟨S32x2, .f32⟩
  | .hbm, ⟨6, _⟩ => ⟨S_, .f32⟩
  | .hbm, ⟨7, _⟩ => ⟨S2, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S2, .f32⟩
  | .hbm, ⟨15, _⟩ => ⟨S_, .f32⟩
  | .hbm, ⟨16, _⟩ => ⟨S32x2, .f32⟩
  | .hbm, ⟨17, _⟩ => ⟨S32x2, .f32⟩
  | .hbm, ⟨18, _⟩ => ⟨S_, .f32⟩
  | .hbm, ⟨19, _⟩ => ⟨S32x2, .f32⟩
  | .hbm, ⟨20, _⟩ => ⟨S32x2, .i1⟩
  | .hbm, ⟨21, _⟩ => ⟨S_, .f32⟩
  | .hbm, ⟨22, _⟩ => ⟨S32x2, .f32⟩
  | .hbm, ⟨23, _⟩ => ⟨S32x2, .f32⟩
  | .hbm, ⟨24, _⟩ => ⟨S32x2, .f32⟩
  | .hbm, ⟨25, _⟩ => ⟨S32x2, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S16x8x32x256, .f32⟩
  | .local _ .vmem, ⟨1, _⟩ => ⟨S16x8x32x256, .f32⟩
  | .local _ .vmem, ⟨2, _⟩ => ⟨S16x8x32x256, .f32⟩
  | .local _ .vmem, ⟨3, _⟩ => ⟨S16x8x32x256, .f32⟩
  | .local _ .vmem, ⟨4, _⟩ => ⟨S16x2, .f32⟩
  | .local _ .vmem, ⟨5, _⟩ => ⟨S16x2, .f32⟩
  | .local _ .vmem, ⟨6, _⟩ => ⟨S16x2, .f32⟩
  | .local _ .vmem, ⟨7, _⟩ => ⟨S16x2, .f32⟩
  | .local _ .vmem, ⟨8, _⟩ => ⟨S16x2, .f32⟩
  | .local _ .vmem, ⟨9, _⟩ => ⟨S16x2, .f32⟩
  | .local _ .vmem, ⟨10, _⟩ => ⟨S16x2, .f32⟩
  | .local _ .vmem, ⟨11, _⟩ => ⟨S16x2, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v94 : BitVec 1 := Scalar.cmpi .eq arg1 c0_i32
  let v95 : BitVec 32 := Scalar.extui v94
  let c0_i32_38 : BitVec 32 := 0#32
  let v96 : BitVec 1 := Scalar.cmpi .ne v95 c0_i32_38
  v96

def k0_cond2 (i : grid0.Coords) : BitVec 1 :=
  let arg1 : BitVec 32 := BitVec.ofNat 32 (i 1).val
  let c0_i32_39 : BitVec 32 := 0#32
  let v97 : BitVec 1 := Scalar.cmpi .ne arg1 c0_i32_39
  let v98 : BitVec 32 := Scalar.extui v97
  let c0_i32_40 : BitVec 32 := 0#32
  let v99 : BitVec 1 := Scalar.cmpi .ne v98 c0_i32_40
  v99

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x8x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16x8x32x256_S16x8x32x256_0_0_0_0 : ∀ a, (![0, 0, 0, 0] : Fin 4 → Nat) a + S16x8x32x256.size a ≤ S16x8x32x256.size a
  h_S16x8x32x256 : 0 < S16x8x32x256.numel
  slices_S16x8x32x256_o0_3_0_0_S16x1x32x256 : S16x8x32x256.Slices ![0, 3, 0, 0] S16x1x32x256
  shapeCasts_S16x1x32x256_S16x32x256 : S16x1x32x256.ShapeCasts S16x32x256
  reduces_S16x32x256_S16x32 : S16x32x256.Reduces [2] S16x32
  reduces_S16x32_S16 : S16x32.Reduces [1] S16
  slices_S16x8x32x256_o0_0_0_0_S16x3x32x256 : S16x8x32x256.Slices ![0, 0, 0, 0] S16x3x32x256
  reduces_S16x3x32x256_S16x32x256 : S16x3x32x256.Reduces [1] S16x32x256
  natLt_1_32 : 1 < 32
  slices_S16x8x32x256_o0_7_0_0_S16x1x32x256 : S16x8x32x256.Slices ![0, 7, 0, 0] S16x1x32x256
  slices_S16x8x32x256_o0_4_0_0_S16x3x32x256 : S16x8x32x256.Slices ![0, 4, 0, 0] S16x3x32x256
  shapeCasts_S16_S16x1 : S16.ShapeCasts S16x1
  concatenates_S16x1_S16x1_S16x2_d1 : Shape.Concatenates [S16x1, S16x1] S16x2 1
  inb_S16x2_S16x2_0_0 : ∀ a, (![0, 0] : Fin 2 → Nat) a + S16x2.size a ≤ S16x2.size a
  h_S16x2 : 0 < S16x2.numel
  shapeCasts_S16x2_S16x2 : S16x2.ShapeCasts S16x2
  reducesTo_S32x2_S2_d0 : S32x2.ReducesTo [0] S2
  h_S_ : 0 < S_.numel
  bcast_S_S2 : S_.BroadcastsInDim S2 (![] : Fin 0 → Fin S2.rank)
  bcast_S_S32x2 : S_.BroadcastsInDim S32x2 (![] : Fin 0 → Fin S32x2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x32x256.size a ≤ S32x8x256x256.size a
  hwx0_0 : ∀ i : grid0.Coords, EltTy.bits .f32 = 32 ∨ (Rect.block (s := S32x8x256x256) S16x8x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x32x256.size a ≤ S32x8x256x256.size a
  hwx0_1 : ∀ i : grid0.Coords, EltTy.bits .f32 = 32 ∨ (Rect.block (s := S32x8x256x256) S16x8x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S32x2.size a
  hwx0_2 : ∀ i : grid0.Coords, EltTy.bits .f32 = 32 ∨ (Rect.block (s := S32x2) S16x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S32x2.size a
  hwx0_3 : ∀ i : grid0.Coords, EltTy.bits .f32 = 32 ∨ (Rect.block (s := S32x2) S16x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2.size a ≤ S32x2.size a
  hwx0_4 : ∀ i : grid0.Coords, EltTy.bits .f32 = 32 ∨ (Rect.block (s := S32x2) S16x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2.size a ≤ S32x2.size a
  hwx0_5 : ∀ i : grid0.Coords, EltTy.bits .f32 = 32 ∨ (Rect.block (s := S32x2) S16x2.size (cc0_transform_5 i) (hinb0_5 i)).WholeWords (EltTy.packing .f32)

variable [Facts₀]

abbrev win0_0 : Pipeline.Window sig grid0 :=
  Pipeline.Window.ofSpec (Memref.whole main_arg0) S16x8x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x2.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S16x2.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S16x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S32x8x256x256 : Shape := ⟨4, ![32, 8, 256, 256]⟩
abbrev S32x2x4x256x256 : Shape := ⟨5, ![32, 2, 4, 256, 256]⟩
abbrev S32x2x1x256x256 : Shape := ⟨5, ![32, 2, 1, 256, 256]⟩
abbrev S32x2x256x256 : Shape := ⟨4, ![32, 2, 256, 256]⟩
abbrev S_ : Shape := ⟨0, ![]⟩
abbrev S2 : Shape := ⟨1, ![2]⟩
abbrev S32x2x3x256x256 : Shape := ⟨5, ![32, 2, 3, 256, 256]⟩
abbrev S32x2 : Shape := ⟨2, ![32, 2]⟩

abbrev nBuf : Space → Nat
  | .hbm => 91
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x2x4x256x256, .f32⟩
  | .hbm, ⟨3, _⟩ => ⟨S32x2x4x256x256, .f32⟩
  | .hbm, ⟨4, _⟩ => ⟨S32x2x1x256x256, .f32⟩
  | .hbm, ⟨5, _⟩ => ⟨S32x2x256x256, .f32⟩
  | .hbm, ⟨6, _⟩ => ⟨S32x2x256x256, .f32⟩
  | .hbm, ⟨7, _⟩ => ⟨S32x2x256x256, .f32⟩
  | .hbm, ⟨8, _⟩ => ⟨S_, .f32⟩
  | .hbm, ⟨9, _⟩ => ⟨S32x2x256x256, .f32⟩
  | .hbm, ⟨10, _⟩ => ⟨S32x2x256x256, .f32⟩
  | .hbm, ⟨11, _⟩ => ⟨S_, .f32⟩
  | .hbm, ⟨12, _⟩ => ⟨S32x2x256x256, .f32⟩
  | .hbm, ⟨13, _⟩ => ⟨S32x2x256x256, .f32⟩
  | .hbm, ⟨14, _⟩ => ⟨S32x2x1x256x256, .f32⟩
  | .hbm, ⟨15, _⟩ => ⟨S32x2x256x256, .f32⟩
  | .hbm, ⟨16, _⟩ => ⟨S32x2x256x256, .f32⟩
  | .hbm, ⟨17, _⟩ => ⟨S_, .f32⟩
  | .hbm, ⟨18, _⟩ => ⟨S_, .f32⟩
  | .hbm, ⟨19, _⟩ => ⟨S32x2x256x256, .f32⟩
  | .hbm, ⟨20, _⟩ => ⟨S32x2x256x256, .f32⟩
  | .hbm, ⟨21, _⟩ => ⟨S32x2x256x256, .f32⟩
  | .hbm, ⟨22, _⟩ => ⟨S32x2x256x256, .f32⟩
  | .hbm, ⟨23, _⟩ => ⟨S_, .f32⟩
  | .hbm, ⟨24, _⟩ => ⟨S_, .f32⟩
  | .hbm, ⟨25, _⟩ => ⟨S32x2x256x256, .f32⟩
  | .hbm, ⟨26, _⟩ => ⟨S32x2x256x256, .f32⟩
  | .hbm, ⟨27, _⟩ => ⟨S32x2x256x256, .f32⟩
  | .hbm, ⟨28, _⟩ => ⟨S_, .f32⟩
  | .hbm, ⟨29, _⟩ => ⟨S32x2x256x256, .f32⟩
  | .hbm, ⟨30, _⟩ => ⟨S32x2x256x256, .f32⟩
  | .hbm, ⟨31, _⟩ => ⟨S32x2x256x256, .f32⟩
  | .hbm, ⟨32, _⟩ => ⟨S32x2x256x256, .f32⟩
  | .hbm, ⟨33, _⟩ => ⟨S_, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S32x2x3x256x256, .f32⟩
  | .hbm, ⟨40, _⟩ => ⟨S32x2x3x256x256, .f32⟩
  | .hbm, ⟨41, _⟩ => ⟨S32x2x3x256x256, .f32⟩
  | .hbm, ⟨42, _⟩ => ⟨S32x2x3x256x256, .f32⟩
  | .hbm, ⟨43, _⟩ => ⟨S_, .f32⟩
  | .hbm, ⟨44, _⟩ => ⟨S32x2x256x256, .f32⟩
  | .hbm, ⟨45, _⟩ => ⟨S32x2x256x256, .f32⟩
  | .hbm, ⟨46, _⟩ => ⟨S_, .f32⟩
  | .hbm, ⟨47, _⟩ => ⟨S32x2x256x256, .f32⟩
  | .hbm, ⟨48, _⟩ => ⟨S32x2x256x256, .i1⟩
  | .hbm, ⟨49, _⟩ => ⟨S_, .f32⟩
  | .hbm, ⟨50, _⟩ => ⟨S_, .f32⟩
  | .hbm, ⟨51, _⟩ => ⟨S32x2x256x256, .f32⟩
  | .hbm, ⟨52, _⟩ => ⟨S32x2x256x256, .f32⟩
  | .hbm, ⟨53, _⟩ => ⟨S_, .f32⟩
  | .hbm, ⟨54, _⟩ => ⟨S32x2x256x256, .f32⟩
  | .hbm, ⟨55, _⟩ => ⟨S32x2x256x256, .i1⟩
  | .hbm, ⟨56, _⟩ => ⟨S32x2x256x256, .i32⟩
  | .hbm, ⟨57, _⟩ => ⟨S_, .i32⟩
  | .hbm, ⟨58, _⟩ => ⟨S32x2, .i32⟩
  | .hbm, ⟨59, _⟩ => ⟨S32x2, .f32⟩
  | .hbm, ⟨60, _⟩ => ⟨S_, .f32⟩
  | .hbm, ⟨61, _⟩ => ⟨S32x2, .f32⟩
  | .hbm, ⟨62, _⟩ => ⟨S_, .f32⟩
  | .hbm, ⟨63, _⟩ => ⟨S32x2, .f32⟩
  | .hbm, ⟨64, _⟩ => ⟨S_, .f32⟩
  | .hbm, ⟨65, _⟩ => ⟨S32x2, .f32⟩
  | .hbm, ⟨66, _⟩ => ⟨S32x2, .f32⟩
  | .hbm, ⟨67, _⟩ => ⟨S_, .f32⟩
  | .hbm, ⟨68, _⟩ => ⟨S32x2, .f32⟩
  | .hbm, ⟨69, _⟩ => ⟨S32x2, .i1⟩
  | .hbm, ⟨70, _⟩ => ⟨S_, .f32⟩
  | .hbm, ⟨71, _⟩ => ⟨S32x2, .f32⟩
  | .hbm, ⟨72, _⟩ => ⟨S32x2, .f32⟩
  | .hbm, ⟨73, _⟩ => ⟨S32x2, .f32⟩
  | .hbm, ⟨74, _⟩ => ⟨S32x2, .f32⟩
  | .hbm, ⟨75, _⟩ => ⟨S_, .f32⟩
  | .hbm, ⟨76, _⟩ => ⟨S2, .f32⟩
  | .hbm, ⟨77, _⟩ => ⟨S_, .f32⟩
  | .hbm, ⟨78, _⟩ => ⟨S2, .f32⟩
  | .hbm, ⟨79, _⟩ => ⟨S2, .f32⟩
  | .hbm, ⟨80, _⟩ => ⟨S_, .f32⟩
  | .hbm, ⟨81, _⟩ => ⟨S2, .f32⟩
  | .hbm, ⟨82, _⟩ => ⟨S2, .f32⟩
  | .hbm, ⟨83, _⟩ => ⟨S_, .f32⟩
  | .hbm, ⟨84, _⟩ => ⟨S2, .f32⟩
  | .hbm, ⟨85, _⟩ => ⟨S2, .f32⟩
  | .hbm, ⟨86, _⟩ => ⟨S2, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_19 : Ref sig .tc := ⟨.hbm, 87, rfl⟩
abbrev main_v58 : Ref sig .tc := ⟨.hbm, 88, rfl⟩
abbrev main_cst_20 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  shapeCasts_S32x8x256x256_S32x2x4x256x256 : S32x8x256x256.ShapeCasts S32x2x4x256x256
  slices_S32x2x4x256x256_S32x2x1x256x256_0_0_3_0_0 : S32x2x4x256x256.Slices ![0, 0, 3, 0, 0] S32x2x1x256x256
  shapeCasts_S32x2x1x256x256_S32x2x256x256 : S32x2x1x256x256.ShapeCasts S32x2x256x256
  bcast_S_S32x2x256x256 : S_.BroadcastsInDim S32x2x256x256 (![] : Fin 0 → Fin S32x2x256x256.rank)
  reducesTo_S32x2x256x256_S2_d0_2_3 : S32x2x256x256.ReducesTo [0, 2, 3] S2
  h_S_ : 0 < S_.numel
  bcast_S_S2 : S_.BroadcastsInDim S2 (![] : Fin 0 → Fin S2.rank)
  slices_S32x2x4x256x256_S32x2x3x256x256_0_0_0_0_0 : S32x2x4x256x256.Slices ![0, 0, 0, 0, 0] S32x2x3x256x256
  reducesTo_S32x2x3x256x256_S32x2x256x256_d2 : S32x2x3x256x256.ReducesTo [2] S32x2x256x256
  natLt_1_32 : 1 < 32
  reducesTo_S32x2x256x256_S32x2_d2_3 : S32x2x256x256.ReducesTo [2, 3] S32x2
  bcast_S_S32x2 : S_.BroadcastsInDim S32x2 (![] : Fin 0 → Fin S32x2.rank)
  reducesTo_S32x2_S2_d0 : S32x2.ReducesTo [0] S2
  reducesTo_S2_S_d0 : S2.ReducesTo [0] S_

variable [Facts₀]

class Facts : Prop extends Facts₀ where

variable [Facts]
-- ==== Proof.K.Pay.lean ====
import proofs.«121299_j17265768529972_1_alg».proof.Proof.Gen.Kernel.Skeleton

/-!
The body's stored values as functions of the two input blocks.

`A2 … A5` are the four statistics of one block (cross-entropy sum, masked sum, nonzero count, norm sum; one column per
channel group), which the body stores at a point whose second grid coordinate is zero; `B2 … B5` are those statistics added to
what the buffer held, which it stores at every other point.
-/

noncomputable section

namespace Cert.Proof.K

open Cert.Kernel Cert.Kernel.Gen
open Idealize.ShloMosaic

variable {F : FTy → Type} [FloatOps F]

def A2 (x0 x1 : Vec F S16x8x32x256 .f32) : FVec F S16x2 .f32 := k0_pay1 (k0_pay10 x0 x1) (k0_pay18 x0 x1)
def A3 (x0 x1 : Vec F S16x8x32x256 .f32) : FVec F S16x2 .f32 := k0_pay2 (k0_pay13 x0 x1) (k0_pay21 x0 x1)
def A4 (x0 x1 : Vec F S16x8x32x256 .f32) : FVec F S16x2 .f32 := k0_pay3 (k0_pay15 (k0_pay14 x0 x1)) (k0_pay22 x0 x1)
def A5 (x0 x1 : Vec F S16x8x32x256 .f32) : FVec F S16x2 .f32 := k0_pay4 (k0_pay16 (k0_pay11 x0 x1)) (k0_pay19 x0 x1)
def B2 (x0 x1 : Vec F S16x8x32x256 .f32) (y : Vec F S16x2 .f32) : FVec F S16x2 .f32 := k0_pay5 (k0_pay10 x0 x1) (k0_pay18 x0 x1) y
def B3 (x0 x1 : Vec F S16x8x32x256 .f32) (y : Vec F S16x2 .f32) : FVec F S16x2 .f32 := k0_pay6 (k0_pay13 x0 x1) (k0_pay21 x0 x1) y
def B4 (x0 x1 : Vec F S16x8x32x256 .f32) (y : Vec F S16x2 .f32) : FVec F S16x2 .f32 := k0_pay7 (k0_pay15 (k0_pay14 x0 x1)) (k0_pay22 x0 x1) y
def B5 (x0 x1 : Vec F S16x8x32x256 .f32) (y : Vec F S16x2 .f32) : FVec F S16x2 .f32 := k0_pay8 (k0_pay16 (k0_pay11 x0 x1)) (k0_pay19 x0 x1) y

/-- Adding to a buffer: the buffer's contents plus the block's statistics (the reshape between is of a shape to itself). -/
theorem B2_eq (x0 x1 : Vec F S16x8x32x256 .f32) (y : Vec F S16x2 .f32) : B2 x0 x1 y = addf (shapeCast S16x2 y shapeCasts_S16x2_S16x2) (A2 x0 x1) := rfl
theorem B3_eq (x0 x1 : Vec F S16x8x32x256 .f32) (y : Vec F S16x2 .f32) : B3 x0 x1 y = addf (shapeCast S16x2 y shapeCasts_S16x2_S16x2) (A3 x0 x1) := rfl
theorem B4_eq (x0 x1 : Vec F S16x8x32x256 .f32) (y : Vec F S16x2 .f32) : B4 x0 x1 y = addf (shapeCast S16x2 y shapeCasts_S16x2_S16x2) (A4 x0 x1) := rfl
theorem B5_eq (x0 x1 : Vec F S16x8x32x256 .f32) (y : Vec F S16x2 .f32) : B5 x0 x1 y = addf (shapeCast S16x2 y shapeCasts_S16x2_S16x2) (A5 x0 x1) := rfl

end Cert.Proof.K

end
-- ==== Proof.K.Body.lean ====
import proofs.«121299_j17265768529972_1_alg».proof.Proof.Gen.Kernel.Frame
import proofs.«121299_j17265768529972_1_alg».proof.Proof.Gen.Kernel.Skeleton
import proofs.«121299_j17265768529972_1_alg».proof.Proof.K.Pay
import Idealize.ShloMosaic.Lib.Pipeline.Value

/-!
The kernel body at every grid point, the pipeline's proof data, and the frame run.

The grid is 2 × 8: point `t` has batch block `t / 8` and row block `t % 8`. Each of the four output windows is a [16, 2]
block indexed by the batch block alone, so it stays in its staging buffer across the eight row blocks and is written
back after the last. At row block 0 the body stores the block's statistics (`A2 … A5` of the two input blocks); at every
other row block it loads the buffer and stores the buffer plus the block's statistics (`B2 … B5`). `accAt` is that
recursion on the point; the proof data say each output buffer holds `accAt` after the body at each point, and each input
buffer its block.
-/

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The body's triples -/

/-- The whole-buffer rectangles' offsets are zero. -/
theorem off2 : (![0, 0] : Fin 2 → ℕ) = fun _ => 0 := funext fun a => by fin_cases a <;> rfl
theorem off4 : (![0, 0, 0, 0] : Fin 4 → ℕ) = fun _ => 0 := funext fun a => by fin_cases a <;> rfl

/-- One store through the whole-buffer rectangle covers every index of a [16, 2] buffer. -/
theorem cover_whole (w : Vec F S16x2 .f32) (y : S16x2.Idx) :
    ∃ pc ∈ ([⟨Rect.unit (s := S16x2) ![0, 0] S16x2.size inb_S16x2_S16x2_0_0, w⟩] : List (View.Piece (Elt F) S16x2 .f32)), y ∈ pc.1.set :=
  View.cover_of_tiled [⟨Rect.unit (s := S16x2) ![0, 0] S16x2.size inb_S16x2_S16x2_0_0, w⟩] S16x2.size (by rfl) y

/-- At a point whose second grid coordinate is zero the body overwrites each of the four statistics buffers with the
    block's statistics. -/
theorem sound_kernel_A (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole)
    (hc1 : k0_cond1 i = 1#1) (hc2 : ¬ k0_cond2 i = 1#1)
    (x0 x1 : Vec F S16x8x32x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare (A2 x0 x1) ∗ owns (c : Thread nD τ) arg5 fullShare (A3 x0 x1)
            ∗ owns (c : Thread nD τ) arg6 fullShare (A4 x0 x1) ∗ owns (c : Thread nD τ) arg7 fullShare (A5 x0 x1)) -∗ K ⟨⟩))
      ⊢ wp frame (wpE (defs₀ (F := F)) Variants.none c none) Set.univ (cc0__lp_mask_stats_kernel i arg2 harg2 arg3 harg3 arg4 harg4 arg5 harg5 arg6 harg6 arg7 harg7) K := by
  simp only [cc0__lp_mask_stats_kernel_eq_skeleton]; unfold cc0__lp_mask_stats_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H3]
  · iexists _; isplitr
    swap; · iexact H3
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H4]
  · iexists _; isplitr
    swap; · iexact H4
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  iexists _; isplitr
  swap; · iexact H5
  ipureintro
  rw [View.read_writes_eq_canon _ _ _ (cover_whole _), View.canon_unit_zero off2]
  sl_unfold_words
  simp only [View.readAt_eq_ld, View.ld_unit_zero (S := S16x8x32x256) off4, View.ld_unit_zero (S := S16x2) off2]
  rfl

/-- At every other point the body adds the block's statistics to what each buffer holds. -/
theorem sound_kernel_B (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole)
    (hc1 : ¬ k0_cond1 i = 1#1) (hc2 : k0_cond2 i = 1#1)
    (x0 x1 : Vec F S16x8x32x256 .f32) (y2 y3 y4 y5 : Vec F S16x2 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare y4 ∗ owns (c : Thread nD τ) arg7 fullShare y5
        ∗ (iprop(owns (c : Thread nD τ) arg2 fullShare x0 ∗ owns (c : Thread nD τ) arg3 fullShare x1
            ∗ owns (c : Thread nD τ) arg4 fullShare (B2 x0 x1 y2) ∗ owns (c : Thread nD τ) arg5 fullShare (B3 x0 x1 y3)
            ∗ owns (c : Thread nD τ) arg6 fullShare (B4 x0 x1 y4) ∗ owns (c : Thread nD τ) arg7 fullShare (B5 x0 x1 y5)) -∗ K ⟨⟩))
      ⊢ wp frame (wpE (defs₀ (F := F)) Variants.none c none) Set.univ (cc0__lp_mask_stats_kernel i arg2 harg2 arg3 harg3 arg4 harg4 arg5 harg5 arg6 harg6 arg7 harg7) K := by
  simp only [cc0__lp_mask_stats_kernel_eq_skeleton]; unfold cc0__lp_mask_stats_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H3]
  · iexists _; isplitr
    swap; · iexact H3
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H4]
  · iexists _; isplitr
    swap; · iexact H4
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  iexists _; isplitr
  swap; · iexact H5
  ipureintro
  rw [View.read_writes_eq_canon _ _ _ (cover_whole _), View.canon_unit_zero off2]
  sl_unfold_words
  simp only [View.readAt_eq_ld, View.ld_unit_zero (S := S16x8x32x256) off4, View.ld_unit_zero (S := S16x2) off2]
  rfl

/-! ## The conditions over the grid -/

/-- The first branch is taken exactly at row block 0, -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- the second exactly at the others. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every grid point one of the two branches stores into the output windows: no output window is ever idle. -/
theorem live (w : Fin 6) (i : grid0.Coords) : idle0 w i = false := by
  have key : ∀ x : Fin 8,
      (!(Scalar.cmpi .ne (Scalar.extui (Scalar.cmpi .eq (BitVec.ofNat 32 x.val) 0#32) : BitVec 32) 0#32 == 1#1)
        && !(Scalar.cmpi .ne (Scalar.extui (Scalar.cmpi .ne (BitVec.ofNat 32 x.val) 0#32) : BitVec 32) 0#32 == 1#1)) = false := by decide
  match w with
  | ⟨0, _⟩ => rfl
  | ⟨1, _⟩ => rfl
  | ⟨2, _⟩ => exact key (i 1)
  | ⟨3, _⟩ => exact key (i 1)
  | ⟨4, _⟩ => exact key (i 1)
  | ⟨5, _⟩ => exact key (i 1)

/-- The same, as the pipeline's configuration spells it. -/
theorem live_cfg (w : Fin cfg0.W) (i : cfg0.grid.Coords) : cfg0.idle w i = false := live w i

/-! ## The accumulation over the points -/

variable (m : (ℓ : Loc nD τ sig) → Buf (Elt F) ℓ) (ρ : Dev nD → PrngReg)

/-- What an output buffer holds after the body at point `n`, for a statistic `A` and its adding form `B`: the block's
    statistic at row block 0, and at the other points that added to what the point before left. -/
def accAt (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD) :
    (n : ℕ) → n < cfg0.N → Vec F S16x2 .f32
  | 0, hn => A (iblk m c 0 ⟨0, hn⟩) (iblk m c 1 ⟨0, hn⟩)
  | n + 1, hn =>
    if (n + 1) % 8 = 0 then A (iblk m c 0 ⟨n + 1, hn⟩) (iblk m c 1 ⟨n + 1, hn⟩)
    else B (iblk m c 0 ⟨n + 1, hn⟩) (iblk m c 1 ⟨n + 1, hn⟩) (accAt A B c n (Nat.lt_of_succ_lt hn))

theorem accAt_first (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD)
    (t : Fin cfg0.N) (h0 : t.val % 8 = 0) :
    accAt m A B c t.val t.isLt = A (iblk m c 0 t) (iblk m c 1 t) := by
  obtain ⟨n, hn⟩ := t
  cases n with
  | zero => rfl
  | succ n => exact (if_pos h0).trans rfl

theorem accAt_later (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD)
    (t : Fin cfg0.N) (h0 : ¬ t.val % 8 = 0) :
    accAt m A B c t.val t.isLt
      = B (iblk m c 0 t) (iblk m c 1 t) (accAt m A B c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t` each
    input's buffer at its block and each output's at the accumulation; the invariant the class's (the scoped rest and the
    generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m A2 B2 c t.val t.isLt
    | ⟨3, _⟩ => accAt m A3 B3 c t.val t.isLt
    | ⟨4, _⟩ => accAt m A4 B4 c t.val t.isLt
    | ⟨5, _⟩ => accAt m A5 B5 c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m A2 B2 c t.val t.isLt := by dsimp only [dats]
theorem after0_3 (c : Dev nD) (t : Fin cfg0.N) : (dats m 0 c).after 3 t = accAt m A3 B3 c t.val t.isLt := by dsimp only [dats]
theorem after0_4 (c : Dev nD) (t : Fin cfg0.N) : (dats m 0 c).after 4 t = accAt m A4 B4 c t.val t.isLt := by dsimp only [dats]
theorem after0_5 (c : Dev nD) (t : Fin cfg0.N) : (dats m 0 c).after 5 t = accAt m A5 B5 c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Past row block 0 an output's staging buffer holds what the body left at the point before: the point is not the first,
    the buffer was not written back between (that happens after row block 7 only), the window is never idle and never cut. -/
theorem before0_2_later (c : Dev nD) (t : Fin cfg0.N) (h0 : ¬ t.val % 8 = 0) (d) :
    (dats m 0 c).before 2 t d = accAt m A2 B2 c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (live_cfg 2) (fun _ _ => rfl)]
  dsimp only [dats]
theorem before0_3_later (c : Dev nD) (t : Fin cfg0.N) (h0 : ¬ t.val % 8 = 0) (d) :
    (dats m 0 c).before 3 t d = accAt m A3 B3 c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (live_cfg 3) (fun _ _ => rfl)]
  dsimp only [dats]
theorem before0_4_later (c : Dev nD) (t : Fin cfg0.N) (h0 : ¬ t.val % 8 = 0) (d) :
    (dats m 0 c).before 4 t d = accAt m A4 B4 c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (live_cfg 4) (fun _ _ => rfl)]
  dsimp only [dats]
theorem before0_5_later (c : Dev nD) (t : Fin cfg0.N) (h0 : ¬ t.val % 8 = 0) (d) :
    (dats m 0 c).before 5 t d = accAt m A5 B5 c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (live_cfg 5) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at any point: the inputs' buffers hold their blocks; at row block 0 the outputs' buffers hold anything and
    the body overwrites them, at the other row blocks they hold the accumulation so far and the body adds to it; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 8 = 0
  · rw [accAt_first m A2 B2 c t h0, accAt_first m A3 B3 c t h0, accAt_first m A4 B4 c t h0, accAt_first m A5 B5 c t h0]
    iintro ⟨HΦ, Ho, ⟨%d0, H0⟩, ⟨%d1, H1⟩, ⟨%d2, H2⟩, ⟨%d3, H3⟩, ⟨%d4, H4⟩, ⟨%d5, H5⟩⟩
    iapply (sound_kernel_A c (grid0.coords t) _ _ _ _ _ _ _ _ _ _ _ _ ((hcond1 t).mpr h0) (fun h => (hcond2 t).mp h h0)
      (iblk m c 0 t) (iblk m c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_later m A2 B2 c t h0, accAt_later m A3 B3 c t h0, accAt_later m A4 B4 c t h0, accAt_later m A5 B5 c t h0]
    simp only [before0_2_later m c t h0, before0_3_later m c t h0, before0_4_later m c t h0, before0_5_later m c t h0]
    iintro ⟨HΦ, Ho, ⟨%d0, H0⟩, ⟨%d1, H1⟩, ⟨%d2, H2⟩, ⟨%d3, H3⟩, ⟨%d4, H4⟩, ⟨%d5, H5⟩⟩
    iapply (sound_kernel_B c (grid0.coords t) _ _ _ _ _ _ _ _ _ _ _ _ (fun h => h0 ((hcond1 t).mp h)) ((hcond2 t).mpr h0)
      (iblk m c 0 t) (iblk m c 1 t) _ _ _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  have h2 : idle0 2 (grid0.coords t) = false := live 2 _
  have h3 : idle0 3 (grid0.coords t) = false := live 3 _
  have h4 : idle0 4 (grid0.coords t) = false := live 4 _
  have h5 : idle0 5 (grid0.coords t) = false := live 5 _
  simp only [h2, h3, h4, h5]
  exact sound_body m c t

/-! ## The run and the frame -/

-- the launch theorem's implicit arguments are found by unifying its conclusion with this one, which takes unfolding plain
-- definitions in a metavariable's type
set_option backward.isDefEq.respectTransparency.types false in
/-- At the compiled mesh, from any memory with zero counters: every weakly fair execution of @main on the TensorCores
    terminates, and every final state has every array of the pipeline at what the library computes from the proof data
    and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.KI.Pay.lean ====
import proofs.«121299_j17265768529972_1_alg».proof.Proof.Gen.KernelIdeal.Skeleton

/-!
The body's stored values as functions of the two input blocks.

`A2 … A5` are the four statistics of one block (cross-entropy sum, masked sum, nonzero count, norm sum; one column per
channel group), which the body stores at a point whose second grid coordinate is zero; `B2 … B5` are those statistics added to
what the buffer held, which it stores at every other point.
-/

noncomputable section

namespace Cert.Proof.KI

open Cert.KernelIdeal Cert.KernelIdeal.Gen
open Idealize.ShloMosaic

variable {F : FTy → Type} [FloatOps F]

def A2 (x0 x1 : Vec F S16x8x32x256 .f32) : FVec F S16x2 .f32 := k0_pay1 (k0_pay10 x0 x1) (k0_pay18 x0 x1)
def A3 (x0 x1 : Vec F S16x8x32x256 .f32) : FVec F S16x2 .f32 := k0_pay2 (k0_pay13 x0 x1) (k0_pay21 x0 x1)
def A4 (x0 x1 : Vec F S16x8x32x256 .f32) : FVec F S16x2 .f32 := k0_pay3 (k0_pay15 (k0_pay14 x0 x1)) (k0_pay22 x0 x1)
def A5 (x0 x1 : Vec F S16x8x32x256 .f32) : FVec F S16x2 .f32 := k0_pay4 (k0_pay16 (k0_pay11 x0 x1)) (k0_pay19 x0 x1)
def B2 (x0 x1 : Vec F S16x8x32x256 .f32) (y : Vec F S16x2 .f32) : FVec F S16x2 .f32 := k0_pay5 (k0_pay10 x0 x1) (k0_pay18 x0 x1) y
def B3 (x0 x1 : Vec F S16x8x32x256 .f32) (y : Vec F S16x2 .f32) : FVec F S16x2 .f32 := k0_pay6 (k0_pay13 x0 x1) (k0_pay21 x0 x1) y
def B4 (x0 x1 : Vec F S16x8x32x256 .f32) (y : Vec F S16x2 .f32) : FVec F S16x2 .f32 := k0_pay7 (k0_pay15 (k0_pay14 x0 x1)) (k0_pay22 x0 x1) y
def B5 (x0 x1 : Vec F S16x8x32x256 .f32) (y : Vec F S16x2 .f32) : FVec F S16x2 .f32 := k0_pay8 (k0_pay16 (k0_pay11 x0 x1)) (k0_pay19 x0 x1) y

/-- Adding to a buffer: the buffer's contents plus the block's statistics (the reshape between is of a shape to itself). -/
theorem B2_eq (x0 x1 : Vec F S16x8x32x256 .f32) (y : Vec F S16x2 .f32) : B2 x0 x1 y = addf (shapeCast S16x2 y shapeCasts_S16x2_S16x2) (A2 x0 x1) := rfl
theorem B3_eq (x0 x1 : Vec F S16x8x32x256 .f32) (y : Vec F S16x2 .f32) : B3 x0 x1 y = addf (shapeCast S16x2 y shapeCasts_S16x2_S16x2) (A3 x0 x1) := rfl
theorem B4_eq (x0 x1 : Vec F S16x8x32x256 .f32) (y : Vec F S16x2 .f32) : B4 x0 x1 y = addf (shapeCast S16x2 y shapeCasts_S16x2_S16x2) (A4 x0 x1) := rfl
theorem B5_eq (x0 x1 : Vec F S16x8x32x256 .f32) (y : Vec F S16x2 .f32) : B5 x0 x1 y = addf (shapeCast S16x2 y shapeCasts_S16x2_S16x2) (A5 x0 x1) := rfl

end Cert.Proof.KI

end
-- ==== Proof.KI.Body.lean ====
import proofs.«121299_j17265768529972_1_alg».proof.Proof.Gen.KernelIdeal.Frame
import proofs.«121299_j17265768529972_1_alg».proof.Proof.Gen.KernelIdeal.Skeleton
import proofs.«121299_j17265768529972_1_alg».proof.Proof.KI.Pay
import Idealize.ShloMosaic.Lib.Pipeline.Value

/-!
The kernel body at every grid point, the pipeline's proof data, and the frame run.

The grid is 2 × 8: point `t` has batch block `t / 8` and row block `t % 8`. Each of the four output windows is a [16, 2]
block indexed by the batch block alone, so it stays in its staging buffer across the eight row blocks and is written
back after the last. At row block 0 the body stores the block's statistics (`A2 … A5` of the two input blocks); at every
other row block it loads the buffer and stores the buffer plus the block's statistics (`B2 … B5`). `accAt` is that
recursion on the point; the proof data say each output buffer holds `accAt` after the body at each point, and each input
buffer its block.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The body's triples -/

/-- The whole-buffer rectangles' offsets are zero. -/
theorem off2 : (![0, 0] : Fin 2 → ℕ) = fun _ => 0 := funext fun a => by fin_cases a <;> rfl
theorem off4 : (![0, 0, 0, 0] : Fin 4 → ℕ) = fun _ => 0 := funext fun a => by fin_cases a <;> rfl

/-- One store through the whole-buffer rectangle covers every index of a [16, 2] buffer. -/
theorem cover_whole (w : Vec F S16x2 .f32) (y : S16x2.Idx) :
    ∃ pc ∈ ([⟨Rect.unit (s := S16x2) ![0, 0] S16x2.size inb_S16x2_S16x2_0_0, w⟩] : List (View.Piece (Elt F) S16x2 .f32)), y ∈ pc.1.set :=
  View.cover_of_tiled [⟨Rect.unit (s := S16x2) ![0, 0] S16x2.size inb_S16x2_S16x2_0_0, w⟩] S16x2.size (by rfl) y

/-- At a point whose second grid coordinate is zero the body overwrites each of the four statistics buffers with the
    block's statistics. -/
theorem sound_kernel_A (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole)
    (hc1 : k0_cond1 i = 1#1) (hc2 : ¬ k0_cond2 i = 1#1)
    (x0 x1 : Vec F S16x8x32x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare (A2 x0 x1) ∗ owns (c : Thread nD τ) arg5 fullShare (A3 x0 x1)
            ∗ owns (c : Thread nD τ) arg6 fullShare (A4 x0 x1) ∗ owns (c : Thread nD τ) arg7 fullShare (A5 x0 x1)) -∗ K ⟨⟩))
      ⊢ wp frame (wpE (defs₀ (F := F)) Variants.none c none) Set.univ (cc0__lp_mask_stats_kernel i arg2 harg2 arg3 harg3 arg4 harg4 arg5 harg5 arg6 harg6 arg7 harg7) K := by
  simp only [cc0__lp_mask_stats_kernel_eq_skeleton]; unfold cc0__lp_mask_stats_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H3]
  · iexists _; isplitr
    swap; · iexact H3
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H4]
  · iexists _; isplitr
    swap; · iexact H4
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  iexists _; isplitr
  swap; · iexact H5
  ipureintro
  rw [View.read_writes_eq_canon _ _ _ (cover_whole _), View.canon_unit_zero off2]
  sl_unfold_words
  simp only [View.readAt_eq_ld, View.ld_unit_zero (S := S16x8x32x256) off4, View.ld_unit_zero (S := S16x2) off2]
  rfl

/-- At every other point the body adds the block's statistics to what each buffer holds. -/
theorem sound_kernel_B (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole)
    (hc1 : ¬ k0_cond1 i = 1#1) (hc2 : k0_cond2 i = 1#1)
    (x0 x1 : Vec F S16x8x32x256 .f32) (y2 y3 y4 y5 : Vec F S16x2 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare y4 ∗ owns (c : Thread nD τ) arg7 fullShare y5
        ∗ (iprop(owns (c : Thread nD τ) arg2 fullShare x0 ∗ owns (c : Thread nD τ) arg3 fullShare x1
            ∗ owns (c : Thread nD τ) arg4 fullShare (B2 x0 x1 y2) ∗ owns (c : Thread nD τ) arg5 fullShare (B3 x0 x1 y3)
            ∗ owns (c : Thread nD τ) arg6 fullShare (B4 x0 x1 y4) ∗ owns (c : Thread nD τ) arg7 fullShare (B5 x0 x1 y5)) -∗ K ⟨⟩))
      ⊢ wp frame (wpE (defs₀ (F := F)) Variants.none c none) Set.univ (cc0__lp_mask_stats_kernel i arg2 harg2 arg3 harg3 arg4 harg4 arg5 harg5 arg6 harg6 arg7 harg7) K := by
  simp only [cc0__lp_mask_stats_kernel_eq_skeleton]; unfold cc0__lp_mask_stats_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H3]
  · iexists _; isplitr
    swap; · iexact H3
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  isplitl [H4]
  · iexists _; isplitr
    swap; · iexact H4
    ipureintro
    rw [View.read_writes_eq_canon _ _ _ (cover_whole _), View.canon_unit_zero off2]
    sl_unfold_words
    simp only [View.readAt_eq_ld, View.ld_unit_zero (S := S16x8x32x256) off4, View.ld_unit_zero (S := S16x2) off2]
    rfl
  iexists _; isplitr
  swap; · iexact H5
  ipureintro
  rw [View.read_writes_eq_canon _ _ _ (cover_whole _), View.canon_unit_zero off2]
  sl_unfold_words
  simp only [View.readAt_eq_ld, View.ld_unit_zero (S := S16x8x32x256) off4, View.ld_unit_zero (S := S16x2) off2]
  rfl

/-! ## The conditions over the grid -/

/-- The first branch is taken exactly at row block 0, -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- the second exactly at the others. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every grid point one of the two branches stores into the output windows: no output window is ever idle. -/
theorem live (w : Fin 6) (i : grid0.Coords) : idle0 w i = false := by
  have key : ∀ x : Fin 8,
      (!(Scalar.cmpi .ne (Scalar.extui (Scalar.cmpi .eq (BitVec.ofNat 32 x.val) 0#32) : BitVec 32) 0#32 == 1#1)
        && !(Scalar.cmpi .ne (Scalar.extui (Scalar.cmpi .ne (BitVec.ofNat 32 x.val) 0#32) : BitVec 32) 0#32 == 1#1)) = false := by decide
  match w with
  | ⟨0, _⟩ => rfl
  | ⟨1, _⟩ => rfl
  | ⟨2, _⟩ => exact key (i 1)
  | ⟨3, _⟩ => exact key (i 1)
  | ⟨4, _⟩ => exact key (i 1)
  | ⟨5, _⟩ => exact key (i 1)

/-- The same, as the pipeline's configuration spells it. -/
theorem live_cfg (w : Fin cfg0.W) (i : cfg0.grid.Coords) : cfg0.idle w i = false := live w i

/-! ## The accumulation over the points -/

variable (m : (ℓ : Loc nD τ sig) → Buf (Elt F) ℓ) (ρ : Dev nD → PrngReg)

/-- What an output buffer holds after the body at point `n`, for a statistic `A` and its adding form `B`: the block's
    statistic at row block 0, and at the other points that added to what the point before left. -/
def accAt (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD) :
    (n : ℕ) → n < cfg0.N → Vec F S16x2 .f32
  | 0, hn => A (iblk m c 0 ⟨0, hn⟩) (iblk m c 1 ⟨0, hn⟩)
  | n + 1, hn =>
    if (n + 1) % 8 = 0 then A (iblk m c 0 ⟨n + 1, hn⟩) (iblk m c 1 ⟨n + 1, hn⟩)
    else B (iblk m c 0 ⟨n + 1, hn⟩) (iblk m c 1 ⟨n + 1, hn⟩) (accAt A B c n (Nat.lt_of_succ_lt hn))

theorem accAt_first (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD)
    (t : Fin cfg0.N) (h0 : t.val % 8 = 0) :
    accAt m A B c t.val t.isLt = A (iblk m c 0 t) (iblk m c 1 t) := by
  obtain ⟨n, hn⟩ := t
  cases n with
  | zero => rfl
  | succ n => exact (if_pos h0).trans rfl

theorem accAt_later (A : Vec F S16x8x32x256 .f32 → Vec F S16x8x32x256 .f32 → FVec F S16x2 .f32)
    (B : Vec F S16x8x32x256 .f32 → Vec F S16x8x32x256 .f32 → Vec F S16x2 .f32 → FVec F S16x2 .f32) (c : Dev nD)
    (t : Fin cfg0.N) (h0 : ¬ t.val % 8 = 0) :
    accAt m A B c t.val t.isLt
      = B (iblk m c 0 t) (iblk m c 1 t) (accAt m A B c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t` each
    input's buffer at its block and each output's at the accumulation; the invariant the class's (the scoped rest and the
    generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m A2 B2 c t.val t.isLt
    | ⟨3, _⟩ => accAt m A3 B3 c t.val t.isLt
    | ⟨4, _⟩ => accAt m A4 B4 c t.val t.isLt
    | ⟨5, _⟩ => accAt m A5 B5 c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m A2 B2 c t.val t.isLt := by dsimp only [dats]
theorem after0_3 (c : Dev nD) (t : Fin cfg0.N) : (dats m 0 c).after 3 t = accAt m A3 B3 c t.val t.isLt := by dsimp only [dats]
theorem after0_4 (c : Dev nD) (t : Fin cfg0.N) : (dats m 0 c).after 4 t = accAt m A4 B4 c t.val t.isLt := by dsimp only [dats]
theorem after0_5 (c : Dev nD) (t : Fin cfg0.N) : (dats m 0 c).after 5 t = accAt m A5 B5 c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Past row block 0 an output's staging buffer holds what the body left at the point before: the point is not the first,
    the buffer was not written back between (that happens after row block 7 only), the window is never idle and never cut. -/
theorem before0_2_later (c : Dev nD) (t : Fin cfg0.N) (h0 : ¬ t.val % 8 = 0) (d) :
    (dats m 0 c).before 2 t d = accAt m A2 B2 c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (live_cfg 2) (fun _ _ => rfl)]
  dsimp only [dats]
theorem before0_3_later (c : Dev nD) (t : Fin cfg0.N) (h0 : ¬ t.val % 8 = 0) (d) :
    (dats m 0 c).before 3 t d = accAt m A3 B3 c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (live_cfg 3) (fun _ _ => rfl)]
  dsimp only [dats]
theorem before0_4_later (c : Dev nD) (t : Fin cfg0.N) (h0 : ¬ t.val % 8 = 0) (d) :
    (dats m 0 c).before 4 t d = accAt m A4 B4 c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (live_cfg 4) (fun _ _ => rfl)]
  dsimp only [dats]
theorem before0_5_later (c : Dev nD) (t : Fin cfg0.N) (h0 : ¬ t.val % 8 = 0) (d) :
    (dats m 0 c).before 5 t d = accAt m A5 B5 c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (live_cfg 5) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at any point: the inputs' buffers hold their blocks; at row block 0 the outputs' buffers hold anything and
    the body overwrites them, at the other row blocks they hold the accumulation so far and the body adds to it; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 8 = 0
  · rw [accAt_first m A2 B2 c t h0, accAt_first m A3 B3 c t h0, accAt_first m A4 B4 c t h0, accAt_first m A5 B5 c t h0]
    iintro ⟨HΦ, Ho, ⟨%d0, H0⟩, ⟨%d1, H1⟩, ⟨%d2, H2⟩, ⟨%d3, H3⟩, ⟨%d4, H4⟩, ⟨%d5, H5⟩⟩
    iapply (sound_kernel_A c (grid0.coords t) _ _ _ _ _ _ _ _ _ _ _ _ ((hcond1 t).mpr h0) (fun h => (hcond2 t).mp h h0)
      (iblk m c 0 t) (iblk m c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_later m A2 B2 c t h0, accAt_later m A3 B3 c t h0, accAt_later m A4 B4 c t h0, accAt_later m A5 B5 c t h0]
    simp only [before0_2_later m c t h0, before0_3_later m c t h0, before0_4_later m c t h0, before0_5_later m c t h0]
    iintro ⟨HΦ, Ho, ⟨%d0, H0⟩, ⟨%d1, H1⟩, ⟨%d2, H2⟩, ⟨%d3, H3⟩, ⟨%d4, H4⟩, ⟨%d5, H5⟩⟩
    iapply (sound_kernel_B c (grid0.coords t) _ _ _ _ _ _ _ _ _ _ _ _ (fun h => h0 ((hcond1 t).mp h)) ((hcond2 t).mpr h0)
      (iblk m c 0 t) (iblk m c 1 t) _ _ _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  have h2 : idle0 2 (grid0.coords t) = false := live 2 _
  have h3 : idle0 3 (grid0.coords t) = false := live 3 _
  have h4 : idle0 4 (grid0.coords t) = false := live 4 _
  have h5 : idle0 5 (grid0.coords t) = false := live 5 _
  simp only [h2, h3, h4, h5]
  exact sound_body m c t

/-! ## The run and the frame -/

-- the launch theorem's implicit arguments are found by unifying its conclusion with this one, which takes unfolding plain
-- definitions in a metavariable's type
set_option backward.isDefEq.respectTransparency.types false in
/-- At the compiled mesh, from any memory with zero counters: every weakly fair execution of @main on the TensorCores
    terminates, and every final state has every array of the pipeline at what the library computes from the proof data
    and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.Spec.lean ====
import Idealize.ShloMosaic.PureOps.Ideal
import Idealize.ShloMosaic.PureOps.Ideal.Laws
import Idealize.ShloMosaic.Lib.ValueIdx

/-!
The mathematics of the masked Lp loss, over the extended reals, index by index.

For an array `x` of logits and images and an array `t` of targets, both of shape [nb, 8, nh, 256] (eight channels = two
groups of four: three image channels and one mask channel), at batch `b`, group `g`, row `h`, column `w`:

* `prob` is the logistic function of the mask logit (channel 4 g + 3);
* `bce` is the cross-entropy term `t · max (log p) (-100) + (1 - t) · max (log (1 - p)) (-100)`;
* `dnorm` is the Euclidean norm of the three-channel difference `x - t` (channels 4 g, 4 g + 1, 4 g + 2);
* `masked` is `dnorm` where `p` exceeds the threshold and zero elsewhere, `ind` the one-bit word "masked ≠ 0".

The four statistics of a (batch, group) pair are the sums of `bce`, `masked`, `ind` (read as 0 or 1) and `dnorm` over all
rows and columns. They are stated for any number of batches and rows, so that they can be read both at the whole arrays
(32 batches, 256 rows) and at one block of them (16 batches, 32 rows); the block of an array is `blockOf`.
-/

noncomputable section

open scoped BigOperators

namespace Cert.Proof.Spec

open Idealize.ShloMosaic Idealize.ShloMosaic.ValueIdx

/-- An array of shape [nb, 8, nh, 256] over the extended reals. -/
abbrev Arr (nb nh : ℕ) := (⟨4, ![nb, 8, nh, 256]⟩ : Shape).Idx → EReal

/-- Channel `4 g + k` of group `g`, for `k < 4`. -/
def ch (g : Fin 2) (k : Fin 4) : Fin 8 := ⟨4 * g.val + k.val, by omega⟩
/-- The three image channels of group `g`. -/
def ch3 (g : Fin 2) (k : Fin 3) : Fin 8 := ⟨4 * g.val + k.val, by omega⟩

/-- The float words the two programs share, as the extended reals they denote (never evaluated: the same word stands on both sides). -/
def neg100 : EReal := Ideal.ofBits .f32 0xC2C80000#32
def one32 : EReal := Ideal.ofBits .f32 0x3F800000#32
def thr : EReal := Ideal.ofBits .f32 0x3F333333#32

variable {nb nh : ℕ}

/-- The mask probability: the logistic function of the mask logit. -/
def prob (x : Arr nb nh) (b : Fin nb) (g : Fin 2) (h : Fin nh) (w : Fin 256) : EReal :=
  Ideal.logistic (x (ix4 b (ch g 3) h w))

/-- The cross-entropy term, both logarithms clamped below at -100. -/
def bce (x t : Arr nb nh) (b : Fin nb) (g : Fin 2) (h : Fin nh) (w : Fin 256) : EReal :=
  t (ix4 b (ch g 3) h w) * max (Ideal.log (prob x b g h w)) neg100
    + (one32 - t (ix4 b (ch g 3) h w)) * max (Ideal.log1p (-(prob x b g h w))) neg100

/-- The Euclidean norm of the three-channel difference. -/
def dnorm (x t : Arr nb nh) (b : Fin nb) (g : Fin 2) (h : Fin nh) (w : Fin 256) : EReal :=
  Ideal.sqrt (∑ k : Fin 3, (x (ix4 b (ch3 g k) h w) - t (ix4 b (ch3 g k) h w)) * (x (ix4 b (ch3 g k) h w) - t (ix4 b (ch3 g k) h w)))

/-- The norm where the probability exceeds the threshold, zero elsewhere. -/
def masked (x t : Arr nb nh) (b : Fin nb) (g : Fin 2) (h : Fin nh) (w : Fin 256) : EReal :=
  Scalar.select (Ideal.cmp .ogt (prob x b g h w) thr) (dnorm x t b g h w) 0

/-- The one-bit word "the masked norm is not zero". -/
def ind (x t : Arr nb nh) (b : Fin nb) (g : Fin 2) (h : Fin nh) (w : Fin 256) : BitVec 1 :=
  Ideal.cmp .one (masked x t b g h w) 0

/-- That word widened to 32 bits and read as a signed integer, as a real: 0 or 1. -/
def indR (x t : Arr nb nh) (b : Fin nb) (g : Fin 2) (h : Fin nh) (w : Fin 256) : EReal :=
  ((((ind x t b g h w).setWidth 32).toInt : ℝ) : EReal)

/-- The four statistics of a (batch, group) pair: sums over all rows and columns. -/
def sBce (x t : Arr nb nh) (b : Fin nb) (g : Fin 2) : EReal := ∑ h : Fin nh, ∑ w : Fin 256, bce x t b g h w
def sMsum (x t : Arr nb nh) (b : Fin nb) (g : Fin 2) : EReal := ∑ h : Fin nh, ∑ w : Fin 256, masked x t b g h w
def sCnt (x t : Arr nb nh) (b : Fin nb) (g : Fin 2) : EReal := ∑ h : Fin nh, ∑ w : Fin 256, indR x t b g h w
def sDn (x t : Arr nb nh) (b : Fin nb) (g : Fin 2) : EReal := ∑ h : Fin nh, ∑ w : Fin 256, dnorm x t b g h w

/-- Block (bi, hi) of a whole array: 16 batches from 16 bi, 32 rows from 32 hi, every channel and column. -/
def blockOf (x : Arr 32 256) (bi : Fin 2) (hi : Fin 8) : Arr 16 32 := fun j =>
  x (ix4 ⟨16 * bi.val + (j 0).val, by have h0 : (j 0).val < 16 := (j 0).isLt; have := bi.isLt; show _ < 32; omega⟩ (j 1)
    ⟨32 * hi.val + (j 2).val, by have h2 : (j 2).val < 32 := (j 2).isLt; have := hi.isLt; show _ < 256; omega⟩ (j 3))

end Cert.Proof.Spec

end
-- ==== Proof.KI.PayValue.lean ====
import proofs.«121299_j17265768529972_1_alg».proof.Proof.KI.Pay
import proofs.«121299_j17265768529972_1_alg».proof.Proof.Spec
import Idealize.ShloMosaic.PureOps.Ideal.Laws
import Idealize.ShloMosaic.Lib.Pipeline.Value
import Idealize.ShloMosaic.Lib.ValueLayout

/-!
The idealized kernel's four stored values, at the ideal instance, are the four statistics of the block it loaded:
column g of each is the sum over the block's 32 rows and 256 columns of `bce`, `masked`, `ind` and `dnorm` for group g.
-/

noncomputable section

open scoped BigOperators

namespace Cert.Proof.KI

open Cert.KernelIdeal Cert.KernelIdeal.Gen Cert.Proof.Spec
open Idealize.ShloMosaic Idealize.ShloMosaic.ValueIdx

/-! ## One-axis sums at an index -/

/-- The sum over the last axis of a [16, 32, 256] array, read at (r, hh): the sum over the 256 columns. -/
theorem sumCols_apply (src : FVec Ideal S16x32x256 .f32) (h : S16x32x256.Reduces [2] S16x32) (hφ : FKind.Formats .f32)
    (hacc : (0x00000000#32 : BitVec 32) = 0x00000000#32) (r : Fin 16) (hh : Fin 32) :
    multiReduction .add [2] S16x32 src 0x00000000#32 h hφ hacc (ix2 r hh) = ∑ w : Fin 256, src (ix3 r hh w) := by
  refine (Ideal.multiReduction_add_single src 0x00000000#32 h hφ hacc (ix2 r hh)).trans ?_
  refine Finset.sum_congr rfl fun w _ => congrArg src ?_
  funext a
  match a with
  | ⟨0, _⟩ => exact Fin.ext rfl
  | ⟨1, _⟩ => exact Fin.ext rfl
  | ⟨2, _⟩ => exact Fin.ext rfl

/-- The sum over the last axis of a [16, 32] array, read at r: the sum over the 32 rows. -/
theorem sumRows_apply (src : FVec Ideal S16x32 .f32) (h : S16x32.Reduces [1] S16) (hφ : FKind.Formats .f32)
    (hacc : (0x00000000#32 : BitVec 32) = 0x00000000#32) (r : Fin 16) :
    multiReduction .add [1] S16 src 0x00000000#32 h hφ hacc (ix1 r) = ∑ hh : Fin 32, src (ix2 r hh) := by
  refine (Ideal.multiReduction_add_single src 0x00000000#32 h hφ hacc (ix1 r)).trans ?_
  refine Finset.sum_congr rfl fun w _ => congrArg src ?_
  funext a
  match a with
  | ⟨0, _⟩ => exact Fin.ext rfl
  | ⟨1, _⟩ => exact Fin.ext rfl

/-- The two reductions one after the other: the double sum over rows and columns. -/
theorem sumRowsCols_apply (src : FVec Ideal S16x32x256 .f32) (h2 : S16x32x256.Reduces [2] S16x32) (h1 : S16x32.Reduces [1] S16)
    (hφ hφ' : FKind.Formats .f32) (hacc hacc' : (0x00000000#32 : BitVec 32) = 0x00000000#32) (r : Fin 16) :
    multiReduction .add [1] S16 (multiReduction .add [2] S16x32 src 0x00000000#32 h2 hφ hacc) 0x00000000#32 h1 hφ' hacc' (ix1 r)
      = ∑ hh : Fin 32, ∑ w : Fin 256, src (ix3 r hh w) := by
  refine (sumRows_apply _ h1 hφ' hacc' r).trans ?_
  exact Finset.sum_congr rfl fun hh _ => sumCols_apply src h2 hφ hacc r hh

/-- The sum over the channel axis of a [16, 3, 32, 256] array, read at (r, hh, w): the sum over the three channels. -/
theorem sumChan_apply (src : FVec Ideal S16x3x32x256 .f32) (h : S16x3x32x256.Reduces [1] S16x32x256) (hφ : FKind.Formats .f32)
    (hacc : (0x00000000#32 : BitVec 32) = 0x00000000#32) (r : Fin 16) (hh : Fin 32) (w : Fin 256) :
    multiReduction .add [1] S16x32x256 src 0x00000000#32 h hφ hacc (ix3 r hh w) = ∑ k : Fin 3, src (ix4 r k hh w) := by
  refine (Ideal.multiReduction_add_single src 0x00000000#32 h hφ hacc (ix3 r hh w)).trans ?_
  refine Finset.sum_congr rfl fun k _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-! ## Layout operations at an index -/

section Layout
variable {α : Type}

/-- A [16] vector cast to [16, 1] reads, at (r, u), the vector at r. -/
theorem shapeCast_a_a1_apply (x : S16.Idx → α) (h : S16.ShapeCasts S16x1) (r : Fin 16) (u : Fin 1) :
    shapeCast S16x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- Two [16] vectors set side by side as the columns of a [16, 2] array: column 0 is the first. -/
theorem cols_apply_zero (a b : S16.Idx → α) (hc : S16.ShapeCasts S16x1) (hcat : Shape.Concatenates [S16x1, S16x1] S16x2 1)
    (r : Fin 16) :
    concatenate S16x2 1 [⟨S16x1, shapeCast S16x1 a hc⟩, ⟨S16x1, shapeCast S16x1 b hc⟩] hcat (ix2 r (0 : Fin 2)) = a (ix1 r) := by
  refine (concatenate_pair_apply_left (t := S16x2) (s₁ := S16x1) (s₂ := S16x1) (1 : Fin 2) _ _ hcat (ix2 r (0 : Fin 2))
    (rfl : S16x1.rank = S16x2.rank) (ix2 r (0 : Fin 1)) fun c => ?_).trans
    (shapeCast_a_a1_apply a hc r 0)
  match c with
  | ⟨0, _⟩ => rfl
  | ⟨1, _⟩ => rfl

/-- … and column 1 is the second. -/
theorem cols_apply_one (a b : S16.Idx → α) (hc : S16.ShapeCasts S16x1) (hcat : Shape.Concatenates [S16x1, S16x1] S16x2 1)
    (r : Fin 16) :
    concatenate S16x2 1 [⟨S16x1, shapeCast S16x1 a hc⟩, ⟨S16x1, shapeCast S16x1 b hc⟩] hcat (ix2 r (1 : Fin 2)) = b (ix1 r) := by
  refine (concatenate_pair_apply_right (t := S16x2) (s₁ := S16x1) (s₂ := S16x1) (1 : Fin 2) _ _ hcat (ix2 r (1 : Fin 2))
    (rfl : S16x1.rank = S16x2.rank) (rfl : S16x1.rank = S16x2.rank) (ix2 r (0 : Fin 1)) (fun c hne => ?_) rfl).trans
    (shapeCast_a_a1_apply b hc r 0)
  match c with
  | ⟨0, _⟩ => rfl
  | ⟨1, _⟩ => exact absurd rfl hne

/-- One channel of a [16, 8, 32, 256] block, cut out and its unit axis dropped, reads at (r, hh, w) the block at
    (r, k, hh, w), k the channel. -/
theorem chanSlice_apply (o : Nat) (x : S16x8x32x256.Idx → α) (hs : S16x8x32x256.Slices ![0, o, 0, 0] S16x1x32x256)
    (hc : S16x1x32x256.ShapeCasts S16x32x256) (r : Fin 16) (hh : Fin 32) (w : Fin 256) (k : Fin 8) (hk : k.val = o) :
    shapeCast S16x32x256 (extractStridedSlice S16x1x32x256 ![0, o, 0, 0] x hs) hc (ix3 r hh w) = x (ix4 r k hh w) := by
  refine (shapeCast_apply _ hc (ix3 r hh w) (ix4 r (0 : Fin 1) hh w) ?_).trans ?_
  · rw [Shape.rowMajor_val_four, Shape.rowMajor_val_three]
    show ((r.val * 1 + 0) * 32 + hh.val) * 256 + w.val = (r.val * 32 + hh.val) * 256 + w.val
    rw [Nat.mul_one, Nat.add_zero]
  · exact slice4_axis1_apply o x hs r (0 : Fin 1) hh w k (by rw [hk]; rfl)

/-- Three channels of a [16, 8, 32, 256] block from channel o on read, at (r, k, hh, w), the block at (r, o + k, hh, w). -/
theorem chan3Slice_apply (o : Nat) (x : S16x8x32x256.Idx → α) (hs : S16x8x32x256.Slices ![0, o, 0, 0] S16x3x32x256)
    (r : Fin 16) (k : Fin 3) (hh : Fin 32) (w : Fin 256) (k' : Fin 8) (hk : k'.val = o + k.val) :
    extractStridedSlice S16x3x32x256 ![0, o, 0, 0] x hs (ix4 r k hh w) = x (ix4 r k' hh w) :=
  slice4_axis1_apply o x hs r k hh w k' hk

end Layout

/-! ## The kernel's text at one element -/

/-- The logistic function of one channel of a block, read at (r, hh, w). -/
theorem probText_apply (x : Vec Ideal S16x8x32x256 .f32) (om : Nat) (hs : S16x8x32x256.Slices ![0, om, 0, 0] S16x1x32x256)
    (hc : S16x1x32x256.ShapeCasts S16x32x256) (r : Fin 16) (hh : Fin 32) (w : Fin 256) (k : Fin 8) (hk : k.val = om) :
    logistic (F := Ideal) (φ := .f32) (shapeCast S16x32x256 (extractStridedSlice S16x1x32x256 ![0, om, 0, 0] x hs) hc) (ix3 r hh w)
      = Ideal.logistic (x (ix4 r k hh w)) :=
  congrArg Ideal.logistic (chanSlice_apply om x hs hc r hh w k hk)

/-- The cross-entropy term over a probability `p` and a target `t`, at one element: the constant zero the kernel
    subtracts `p` from is the real zero, so that `0 - p` is `-p`. -/
theorem bceText_apply (p t : FVec Ideal S16x32x256 .f32) (i : S16x32x256.Idx) :
    addf (mulf t (maximumf (log p) (broadcast S16x32x256 (Scalar.ofBits (F := Ideal) .f32 0xC2C80000#32))))
        (mulf (subf (broadcast S16x32x256 (Scalar.ofBits (F := Ideal) .f32 0x3F800000#32)) t)
          (maximumf (log1p (subf (broadcast S16x32x256 (Scalar.ofBits (F := Ideal) .f32 0x00000000#32)) p))
            (broadcast S16x32x256 (Scalar.ofBits (F := Ideal) .f32 0xC2C80000#32)))) i
      = t i * max (Ideal.log (p i)) neg100 + (one32 - t i) * max (Ideal.log1p (-(p i))) neg100 := by
  show t i * max (Ideal.log (p i)) neg100
      + (one32 - t i) * max (Ideal.log1p (Ideal.ofBits .f32 0x00000000#32 - p i)) neg100 = _
  rw [Ideal.ofBits_zero_f32, zero_sub]

/-- The norm of the three-channel difference from channel `oi` on, at one element. -/
theorem dnormText_apply (x t : Vec Ideal S16x8x32x256 .f32) (oi : Nat) (hs : S16x8x32x256.Slices ![0, oi, 0, 0] S16x3x32x256)
    (h : S16x3x32x256.Reduces [1] S16x32x256) (hφ : FKind.Formats .f32) (hacc : (0x00000000#32 : BitVec 32) = 0x00000000#32)
    (r : Fin 16) (hh : Fin 32) (w : Fin 256) (kk : Fin 3 → Fin 8) (hkk : ∀ k, (kk k).val = oi + k.val) :
    sqrt (F := Ideal) (φ := .f32) (multiReduction .add [1] S16x32x256
        (mulf (subf (extractStridedSlice S16x3x32x256 ![0, oi, 0, 0] x hs) (extractStridedSlice S16x3x32x256 ![0, oi, 0, 0] t hs))
          (subf (extractStridedSlice S16x3x32x256 ![0, oi, 0, 0] x hs) (extractStridedSlice S16x3x32x256 ![0, oi, 0, 0] t hs)))
        0x00000000#32 h hφ hacc) (ix3 r hh w)
      = Ideal.sqrt (∑ k : Fin 3, (x (ix4 r (kk k) hh w) - t (ix4 r (kk k) hh w)) * (x (ix4 r (kk k) hh w) - t (ix4 r (kk k) hh w))) := by
  refine congrArg Ideal.sqrt ((sumChan_apply _ h hφ hacc r hh w).trans ?_)
  refine Finset.sum_congr rfl fun k _ => ?_
  show (extractStridedSlice S16x3x32x256 ![0, oi, 0, 0] x hs (ix4 r k hh w)
        - extractStridedSlice S16x3x32x256 ![0, oi, 0, 0] t hs (ix4 r k hh w))
      * (extractStridedSlice S16x3x32x256 ![0, oi, 0, 0] x hs (ix4 r k hh w)
        - extractStridedSlice S16x3x32x256 ![0, oi, 0, 0] t hs (ix4 r k hh w)) = _
  rw [chan3Slice_apply oi x hs r k hh w (kk k) (hkk k), chan3Slice_apply oi t hs r k hh w (kk k) (hkk k)]

/-- The norm kept where the probability exceeds the threshold, at one element: the constant zero is the real zero. -/
theorem maskedText_apply (p d : FVec Ideal S16x32x256 .f32) (i : S16x32x256.Idx) :
    select (cmpf .ogt p (broadcast S16x32x256 (Scalar.ofBits (F := Ideal) .f32 0x3F333333#32))) d
        (broadcast S16x32x256 (Scalar.ofBits (F := Ideal) .f32 0x00000000#32)) i
      = Scalar.select (Ideal.cmp .ogt (p i) thr) (d i) 0 := by
  show Scalar.select (Ideal.cmp .ogt (p i) thr) (d i) (Ideal.ofBits .f32 0x00000000#32) = _
  rw [Ideal.ofBits_zero_f32]

/-- The one-bit word "not zero", widened and read as a signed integer, at one element. -/
theorem indText_apply (m : FVec Ideal S16x32x256 .f32) (hlt : 1 < 32) (i : S16x32x256.Idx) :
    (sitofp .f32 (extui 32 (cmpf .one m (broadcast S16x32x256 (Scalar.ofBits (F := Ideal) .f32 0x00000000#32))) hlt)
        : FVec Ideal S16x32x256 .f32) i
      = ((((Ideal.cmp .one (m i) 0).setWidth 32).toInt : ℝ) : EReal) := by
  show ((((Ideal.cmp .one (m i) (Ideal.ofBits .f32 0x00000000#32)).setWidth 32).toInt : ℝ) : EReal) = _
  rw [Ideal.ofBits_zero_f32]

/-! ## Group 0: channels 0 to 3 -/

section Groups
variable (v0 v1 : Vec Ideal S16x8x32x256 .f32)

theorem k0_pay9_apply (r : Fin 16) (hh : Fin 32) (w : Fin 256) :
    k0_pay9 (F := Ideal) v0 (ix3 r hh w) = prob (nb := 16) (nh := 32) v0 r 0 hh w :=
  probText_apply v0 3 (by decide) (by decide) r hh w (ch 0 3) rfl

theorem k0_pay10_apply (r : Fin 16) : k0_pay10 (F := Ideal) v0 v1 (ix1 r) = sBce (nb := 16) (nh := 32) v0 v1 r 0 := by
  refine (sumRowsCols_apply _ (by decide) (by decide) (.inl rfl) (.inl rfl) rfl rfl r).trans ?_
  refine Finset.sum_congr rfl fun hh _ => Finset.sum_congr rfl fun w _ => ?_
  refine (bceText_apply _ _ (ix3 r hh w)).trans ?_
  rw [k0_pay9_apply v0 r hh w, chanSlice_apply 3 v1 (by decide) (by decide) r hh w (ch 0 3) rfl]
  rfl

theorem k0_pay11_apply (r : Fin 16) (hh : Fin 32) (w : Fin 256) :
    k0_pay11 (F := Ideal) v0 v1 (ix3 r hh w) = dnorm (nb := 16) (nh := 32) v0 v1 r 0 hh w :=
  dnormText_apply v0 v1 0 (by decide) (by decide) (.inl rfl) rfl r hh w (ch3 0) fun _ => rfl

theorem k0_pay12_apply (r : Fin 16) (hh : Fin 32) (w : Fin 256) :
    k0_pay12 (F := Ideal) v0 v1 (ix3 r hh w) = masked (nb := 16) (nh := 32) v0 v1 r 0 hh w := by
  refine (maskedText_apply _ _ (ix3 r hh w)).trans ?_
  rw [k0_pay9_apply v0 r hh w, k0_pay11_apply v0 v1 r hh w]
  rfl

theorem k0_pay13_apply (r : Fin 16) : k0_pay13 (F := Ideal) v0 v1 (ix1 r) = sMsum (nb := 16) (nh := 32) v0 v1 r 0 :=
  (sumRowsCols_apply _ (by decide) (by decide) (.inl rfl) (.inl rfl) rfl rfl r).trans
    (Finset.sum_congr rfl fun hh _ => Finset.sum_congr rfl fun w _ => k0_pay12_apply v0 v1 r hh w)

theorem k0_pay14_apply (r : Fin 16) (hh : Fin 32) (w : Fin 256) :
    k0_pay14 (F := Ideal) v0 v1 (ix3 r hh w) = indR (nb := 16) (nh := 32) v0 v1 r 0 hh w := by
  refine (indText_apply _ (by decide) (ix3 r hh w)).trans ?_
  rw [k0_pay12_apply v0 v1 r hh w]
  rfl

theorem k0_pay15_apply (r : Fin 16) :
    k0_pay15 (F := Ideal) (k0_pay14 v0 v1) (ix1 r) = sCnt (nb := 16) (nh := 32) v0 v1 r 0 :=
  (sumRowsCols_apply _ (by decide) (by decide) (.inl rfl) (.inl rfl) rfl rfl r).trans
    (Finset.sum_congr rfl fun hh _ => Finset.sum_congr rfl fun w _ => k0_pay14_apply v0 v1 r hh w)

theorem k0_pay16_apply (r : Fin 16) :
    k0_pay16 (F := Ideal) (k0_pay11 v0 v1) (ix1 r) = sDn (nb := 16) (nh := 32) v0 v1 r 0 :=
  (sumRowsCols_apply _ (by decide) (by decide) (.inl rfl) (.inl rfl) rfl rfl r).trans
    (Finset.sum_congr rfl fun hh _ => Finset.sum_congr rfl fun w _ => k0_pay11_apply v0 v1 r hh w)

/-! ## Group 1: channels 4 to 7, the same text -/

theorem k0_pay17_apply (r : Fin 16) (hh : Fin 32) (w : Fin 256) :
    k0_pay17 (F := Ideal) v0 (ix3 r hh w) = prob (nb := 16) (nh := 32) v0 r 1 hh w :=
  probText_apply v0 7 (by decide) (by decide) r hh w (ch 1 3) rfl

theorem k0_pay18_apply (r : Fin 16) : k0_pay18 (F := Ideal) v0 v1 (ix1 r) = sBce (nb := 16) (nh := 32) v0 v1 r 1 := by
  refine (sumRowsCols_apply _ (by decide) (by decide) (.inl rfl) (.inl rfl) rfl rfl r).trans ?_
  refine Finset.sum_congr rfl fun hh _ => Finset.sum_congr rfl fun w _ => ?_
  refine (bceText_apply _ _ (ix3 r hh w)).trans ?_
  rw [k0_pay17_apply v0 r hh w, chanSlice_apply 7 v1 (by decide) (by decide) r hh w (ch 1 3) rfl]
  rfl

theorem k0_pay19_apply (r : Fin 16) (hh : Fin 32) (w : Fin 256) :
    k0_pay19 (F := Ideal) v0 v1 (ix3 r hh w) = dnorm (nb := 16) (nh := 32) v0 v1 r 1 hh w :=
  dnormText_apply v0 v1 4 (by decide) (by decide) (.inl rfl) rfl r hh w (ch3 1) fun _ => rfl

theorem k0_pay20_apply (r : Fin 16) (hh : Fin 32) (w : Fin 256) :
    k0_pay20 (F := Ideal) v0 v1 (ix3 r hh w) = masked (nb := 16) (nh := 32) v0 v1 r 1 hh w := by
  refine (maskedText_apply _ _ (ix3 r hh w)).trans ?_
  rw [k0_pay17_apply v0 r hh w, k0_pay19_apply v0 v1 r hh w]
  rfl

theorem k0_pay21_apply (r : Fin 16) : k0_pay21 (F := Ideal) v0 v1 (ix1 r) = sMsum (nb := 16) (nh := 32) v0 v1 r 1 :=
  (sumRowsCols_apply _ (by decide) (by decide) (.inl rfl) (.inl rfl) rfl rfl r).trans
    (Finset.sum_congr rfl fun hh _ => Finset.sum_congr rfl fun w _ => k0_pay20_apply v0 v1 r hh w)

theorem k0_pay22_apply (r : Fin 16) : k0_pay22 (F := Ideal) v0 v1 (ix1 r) = sCnt (nb := 16) (nh := 32) v0 v1 r 1 := by
  refine (sumRowsCols_apply _ (by decide) (by decide) (.inl rfl) (.inl rfl) rfl rfl r).trans ?_
  refine Finset.sum_congr rfl fun hh _ => Finset.sum_congr rfl fun w _ => ?_
  refine (indText_apply _ (by decide) (ix3 r hh w)).trans ?_
  rw [k0_pay20_apply v0 v1 r hh w]
  rfl

end Groups

/-! ## The four stored values -/

variable (X0 X1 : Vec Ideal S16x8x32x256 .f32)

theorem A2_apply : A2 (F := Ideal) X0 X1 = fun j => sBce (nb := 16) (nh := 32) X0 X1 (j 0) (j 1) := by
  funext j
  obtain ⟨r, g, rfl⟩ : ∃ (r : Fin 16) (g : Fin 2), j = ix2 r g := ⟨j 0, j 1, eq_ix2 j⟩
  show k0_pay1 (k0_pay10 X0 X1) (k0_pay18 X0 X1) (ix2 r g) = sBce (nb := 16) (nh := 32) X0 X1 r g
  match g with
  | ⟨0, _⟩ => exact (cols_apply_zero _ _ (by decide) (by decide) r).trans (k0_pay10_apply X0 X1 r)
  | ⟨1, _⟩ => exact (cols_apply_one _ _ (by decide) (by decide) r).trans (k0_pay18_apply X0 X1 r)

theorem A3_apply : A3 (F := Ideal) X0 X1 = fun j => sMsum (nb := 16) (nh := 32) X0 X1 (j 0) (j 1) := by
  funext j
  obtain ⟨r, g, rfl⟩ : ∃ (r : Fin 16) (g : Fin 2), j = ix2 r g := ⟨j 0, j 1, eq_ix2 j⟩
  show k0_pay2 (k0_pay13 X0 X1) (k0_pay21 X0 X1) (ix2 r g) = sMsum (nb := 16) (nh := 32) X0 X1 r g
  match g with
  | ⟨0, _⟩ => exact (cols_apply_zero _ _ (by decide) (by decide) r).trans (k0_pay13_apply X0 X1 r)
  | ⟨1, _⟩ => exact (cols_apply_one _ _ (by decide) (by decide) r).trans (k0_pay21_apply X0 X1 r)

theorem A4_apply : A4 (F := Ideal) X0 X1 = fun j => sCnt (nb := 16) (nh := 32) X0 X1 (j 0) (j 1) := by
  funext j
  obtain ⟨r, g, rfl⟩ : ∃ (r : Fin 16) (g : Fin 2), j = ix2 r g := ⟨j 0, j 1, eq_ix2 j⟩
  show k0_pay3 (k0_pay15 (k0_pay14 X0 X1)) (k0_pay22 X0 X1) (ix2 r g) = sCnt (nb := 16) (nh := 32) X0 X1 r g
  match g with
  | ⟨0, _⟩ => exact (cols_apply_zero _ _ (by decide) (by decide) r).trans (k0_pay15_apply X0 X1 r)
  | ⟨1, _⟩ => exact (cols_apply_one _ _ (by decide) (by decide) r).trans (k0_pay22_apply X0 X1 r)

theorem A5_apply : A5 (F := Ideal) X0 X1 = fun j => sDn (nb := 16) (nh := 32) X0 X1 (j 0) (j 1) := by
  funext j
  obtain ⟨r, g, rfl⟩ : ∃ (r : Fin 16) (g : Fin 2), j = ix2 r g := ⟨j 0, j 1, eq_ix2 j⟩
  show k0_pay4 (k0_pay16 (k0_pay11 X0 X1)) (k0_pay19 X0 X1) (ix2 r g) = sDn (nb := 16) (nh := 32) X0 X1 r g
  match g with
  | ⟨0, _⟩ => exact (cols_apply_zero _ _ (by decide) (by decide) r).trans (k0_pay16_apply X0 X1 r)
  | ⟨1, _⟩ =>
    refine (cols_apply_one _ _ (by decide) (by decide) r).trans ((sumRowsCols_apply _ (by decide) (by decide) (.inl rfl) (.inl rfl) rfl rfl r).trans ?_)
    exact Finset.sum_congr rfl fun hh _ => Finset.sum_congr rfl fun w _ => k0_pay19_apply X0 X1 r hh w

end Cert.Proof.KI

end
-- ==== Proof.SpecSplit.lean ====
import proofs.«121299_j17265768529972_1_alg».proof.Proof.Spec
import Mathlib.Data.Fintype.BigOperators
import Mathlib.Logic.Equiv.Fin.Basic

/-!
A statistic of the whole arrays is the sum, over the eight blocks of 32 rows, of the same statistic of the blocks:
the 256 rows are 8 × 32, and a block's entry is the array's entry at the shifted batch and row.
-/

noncomputable section

open scoped BigOperators

namespace Cert.Proof.Spec

open Idealize.ShloMosaic Idealize.ShloMosaic.ValueIdx

/-- Batch `16 bi + r` of the whole array. -/
def batchOf (bi : Fin 2) (r : Fin 16) : Fin 32 := ⟨16 * bi.val + r.val, by omega⟩

/-- Row `32 hi + hh` of the whole array. -/
def rowOf (hi : Fin 8) (hh : Fin 32) : Fin 256 := ⟨32 * hi.val + hh.val, by omega⟩

/-- A sum over the 256 rows is the double sum over the eight blocks and the 32 rows of a block: the pairs (hi, hh) are in
    bijection with the rows through (hi, hh) ↦ 32 hi + hh. -/
theorem sum_rows_split (f : Fin 256 → EReal) : ∑ hi : Fin 8, ∑ hh : Fin 32, f (rowOf hi hh) = ∑ h : Fin 256, f h := by
  rw [← Equiv.sum_comp (finProdFinEquiv : Fin 8 × Fin 32 ≃ Fin 256) f, Fintype.sum_prod_type]
  refine Finset.sum_congr rfl fun hi _ => Finset.sum_congr rfl fun hh _ => congrArg f (Fin.ext ?_)
  show 32 * hi.val + hh.val = hh.val + 32 * hi.val
  omega

variable (x t : Arr 32 256) (bi : Fin 2) (r : Fin 16) (g : Fin 2)

/-- A block's entry is the whole array's entry at the shifted batch and row. -/
theorem blockOf_apply (hi : Fin 8) (c : Fin 8) (hh : Fin 32) (w : Fin 256) :
    blockOf x bi hi (ix4 r c hh w) = x (ix4 (batchOf bi r) c (rowOf hi hh) w) := rfl

theorem prob_block (hi : Fin 8) (hh : Fin 32) (w : Fin 256) :
    prob (blockOf x bi hi) r g hh w = prob x (batchOf bi r) g (rowOf hi hh) w := by
  simp only [prob, blockOf_apply]

theorem bce_block (hi : Fin 8) (hh : Fin 32) (w : Fin 256) :
    bce (blockOf x bi hi) (blockOf t bi hi) r g hh w = bce x t (batchOf bi r) g (rowOf hi hh) w := by
  simp only [bce, prob_block, blockOf_apply]

theorem dnorm_block (hi : Fin 8) (hh : Fin 32) (w : Fin 256) :
    dnorm (blockOf x bi hi) (blockOf t bi hi) r g hh w = dnorm x t (batchOf bi r) g (rowOf hi hh) w := by
  simp only [dnorm, blockOf_apply]

theorem masked_block (hi : Fin 8) (hh : Fin 32) (w : Fin 256) :
    masked (blockOf x bi hi) (blockOf t bi hi) r g hh w = masked x t (batchOf bi r) g (rowOf hi hh) w := by
  simp only [masked, prob_block, dnorm_block]

theorem indR_block (hi : Fin 8) (hh : Fin 32) (w : Fin 256) :
    indR (blockOf x bi hi) (blockOf t bi hi) r g hh w = indR x t (batchOf bi r) g (rowOf hi hh) w := by
  simp only [indR, ind, masked_block]

theorem sBce_split : ∑ hi : Fin 8, sBce (blockOf x bi hi) (blockOf t bi hi) r g = sBce x t (batchOf bi r) g := by
  unfold sBce
  rw [← sum_rows_split fun h => ∑ w : Fin 256, bce x t (batchOf bi r) g h w]
  exact Finset.sum_congr rfl fun hi _ => Finset.sum_congr rfl fun hh _ => Finset.sum_congr rfl fun w _ =>
    bce_block x t bi r g hi hh w

theorem sMsum_split : ∑ hi : Fin 8, sMsum (blockOf x bi hi) (blockOf t bi hi) r g = sMsum x t (batchOf bi r) g := by
  unfold sMsum
  rw [← sum_rows_split fun h => ∑ w : Fin 256, masked x t (batchOf bi r) g h w]
  exact Finset.sum_congr rfl fun hi _ => Finset.sum_congr rfl fun hh _ => Finset.sum_congr rfl fun w _ =>
    masked_block x t bi r g hi hh w

theorem sCnt_split : ∑ hi : Fin 8, sCnt (blockOf x bi hi) (blockOf t bi hi) r g = sCnt x t (batchOf bi r) g := by
  unfold sCnt
  rw [← sum_rows_split fun h => ∑ w : Fin 256, indR x t (batchOf bi r) g h w]
  exact Finset.sum_congr rfl fun hi _ => Finset.sum_congr rfl fun hh _ => Finset.sum_congr rfl fun w _ =>
    indR_block x t bi r g hi hh w

theorem sDn_split : ∑ hi : Fin 8, sDn (blockOf x bi hi) (blockOf t bi hi) r g = sDn x t (batchOf bi r) g := by
  unfold sDn
  rw [← sum_rows_split fun h => ∑ w : Fin 256, dnorm x t (batchOf bi r) g h w]
  exact Finset.sum_congr rfl fun hi _ => Finset.sum_congr rfl fun hh _ => Finset.sum_congr rfl fun w _ =>
    dnorm_block x t bi r g hi hh w

end Cert.Proof.Spec

end
-- ==== Proof.Tail.lean ====
import Idealize.ShloMosaic.PureOps.Ideal
import Idealize.ShloMosaic.PureOps.Ideal.Laws
import Idealize.ShloMosaic.Lib.ValueIdx

/-!
The host operations that both programs apply to the four statistics, as two functions.

`perSample` is the per-(batch, group) image loss: the masked sum over the nonzero count (at least one) where the count is
positive, the mean norm (the norm sum over 65536) elsewhere. `combine` takes the per-group mask loss and the per-sample
image loss to the scalar: the image loss averaged over the 32 batches, 0.7 · mask + 0.3 · image, averaged over the two groups.
The shape side conditions the operations take are arguments, so that each program supplies its own.
-/

noncomputable section

namespace Cert.Proof.Tail

open Idealize.ShloMosaic

abbrev S322 : Shape := ⟨2, ![32, 2]⟩
abbrev S2' : Shape := ⟨1, ![2]⟩
abbrev S0 : Shape := ⟨0, ![]⟩

/-- The shape side conditions of the shared host operations. -/
structure ShapeFacts : Prop where
  r322 : S322.ReducesTo [0] S2'
  r2 : S2'.ReducesTo [0] S0
  h0 : 0 < S0.numel
  b2 : S0.BroadcastsInDim S2' (![] : Fin 0 → Fin S2'.rank)
  b322 : S0.BroadcastsInDim S322 (![] : Fin 0 → Fin S322.rank)

variable {F : FTy → Type} [FloatOps F] (hf : ShapeFacts)

/-- The per-sample image loss from the masked sum, the nonzero count and the norm sum. -/
def perSample (msum cnt dn : FVec F S322 .f32) : FVec F S322 .f32 :=
  select (cmpf .ogt cnt (broadcastInDim S322 ![] hf.b322 (constant S0 .f32 0x00000000#32)))
    (Host.divf msum (maximumf cnt (broadcastInDim S322 ![] hf.b322 (constant S0 .f32 0x3F800000#32))))
    (Host.divf dn (broadcastInDim S322 ![] hf.b322 (constant S0 .f32 0x47800000#32)))

/-- The scalar loss from the per-group mask loss and the per-sample image loss. -/
def combine (ml : FVec F S2' .f32) (ps : FVec F S322 .f32) : FVec F S0 .f32 :=
  Host.divf
    (Host.reduceAdd
      (addf (mulf (broadcastInDim S2' ![] hf.b2 (constant S0 .f32 0x3F333333#32)) ml)
        (mulf (broadcastInDim S2' ![] hf.b2 (constant S0 .f32 0x3E99999A#32))
          (Host.divf (Host.reduceAdd ps (constant S0 .f32 0x00000000#32) hf.r322 hf.h0)
            (broadcastInDim S2' ![] hf.b2 (constant S0 .f32 0x42000000#32)))))
      (constant S0 .f32 0x00000000#32) hf.r2 hf.h0)
    (constant S0 .f32 0x40000000#32)

/-- The kernel's mask loss from its cross-entropy sums per (batch, group): minus the mean over the 32 batches, over 65536. -/
def maskLossK (bce : FVec F S322 .f32) : FVec F S2' .f32 :=
  Host.divf (Host.negf (Host.divf (Host.reduceAdd bce (constant S0 .f32 0x00000000#32) hf.r322 hf.h0)
    (broadcastInDim S2' ![] hf.b2 (constant S0 .f32 0x42000000#32))))
    (broadcastInDim S2' ![] hf.b2 (constant S0 .f32 0x47800000#32))

/-- The reference's mask loss from its cross-entropy sums per group: minus the sum over 2097152. -/
def maskLossR (bce : FVec F S2' .f32) : FVec F S2' .f32 :=
  Host.negf (Host.divf bce (broadcastInDim S2' ![] hf.b2 (constant S0 .f32 0x4A000000#32)))

end Cert.Proof.Tail

end
-- ==== Proof.KI.Value.lean ====
import proofs.«121299_j17265768529972_1_alg».proof.Proof.KI.Body
import proofs.«121299_j17265768529972_1_alg».proof.Proof.KI.PayValue
import proofs.«121299_j17265768529972_1_alg».proof.Proof.SpecSplit
import proofs.«121299_j17265768529972_1_alg».proof.Proof.Tail
import Idealize.ShloMosaic.Lib.Pipeline.Value
import Idealize.ShloMosaic.Lib.StableHlo.Run
import Idealize.ShloMosaic.Lib.ValueIdx

/-!
What the idealized kernel's four result arrays hold after the run, and its scalar result.

Point `t` of the 2 × 8 grid reads block (t / 8, t % 8) of each argument array (16 batches from 16 (t / 8), 32 rows from
32 (t % 8)). An output buffer after point 8 bi + k holds the sum over the row blocks 0 … k of the block statistics (the
accumulation, opened by induction on the point); after row block 7 it is written back as rows 16 bi … 16 bi + 15 of the
result array. So each result array at (b, g) is the sum over the eight row blocks of the block statistic, which is the
statistic of the whole arrays; the host operations after the region are then `combine`, `maskLossK` and `perSample` of them.
-/

set_option maxRecDepth 16384

noncomputable section

open scoped BigOperators

namespace Cert.Proof.KI

open Cert.KernelIdeal Cert.KernelIdeal.Gen Cert.Proof.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument arrays on core `c`. -/
abbrev xArr (c : Dev nD) : Arr 32 256 := m ((c : Thread nD τ).loc main_arg0)
abbrev tArr (c : Dev nD) : Arr 32 256 := m ((c : Thread nD τ).loc main_arg1)

/-! ## The index maps over the grid -/

/-- The input windows' block indices at point `t`: (t / 8, 0, t % 8, 0). -/
theorem idx_in : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0 :=
  (by decide +kernel : ∀ t : Fin grid0.N, _)

/-- The output windows' block indices at point `t`: (t / 8, 0). -/
theorem idx_out : ∀ t : Fin cfg0.N,
    win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The batch block and the row block of point `t`. -/
def biOf (t : Fin cfg0.N) : Fin 2 := ⟨t.val / 8, by have h : t.val < 16 := lt_of_lt_of_eq t.isLt (show cfg0.N = 16 from N_0); omega⟩
def hiOf (t : Fin cfg0.N) : Fin 8 := ⟨t.val % 8, Nat.mod_lt _ (by decide)⟩

/-- The block the first window reads at point `t` is block (t / 8, t % 8) of the first argument array, -/
theorem iblk0_eq (c : Dev nD) (t : Fin cfg0.N) :
    (iblk m c 0 t : Vec Ideal S16x8x32x256 .f32) = blockOf (xArr m c) (biOf t) (hiOf t) := by
  obtain ⟨e0, e1, e2, e3, -⟩ := idx_in t
  funext j
  unfold iblk
  rw [View.read_apply]
  show V m c main_arg0 _ = m ((c : Thread nD τ).loc main_arg0) _
  rw [V_main_arg0]
  refine congrArg (m ((c : Thread nD τ).loc main_arg0)) ?_
  funext a
  apply Fin.ext
  match a with
  | ⟨0, _⟩ => show win0_0.index t (0 : Fin 4) * 16 + 1 * (j 0).val = 16 * (t.val / 8) + (j 0).val; rw [e0]; omega
  | ⟨1, _⟩ => show win0_0.index t (1 : Fin 4) * 8 + 1 * (j 1).val = (j 1).val; rw [e1]; omega
  | ⟨2, _⟩ => show win0_0.index t (2 : Fin 4) * 32 + 1 * (j 2).val = 32 * (t.val % 8) + (j 2).val; rw [e2]; omega
  | ⟨3, _⟩ => show win0_0.index t (3 : Fin 4) * 256 + 1 * (j 3).val = (j 3).val; rw [e3]; omega

/-- and the second window's the same block of the second. -/
theorem iblk1_eq (c : Dev nD) (t : Fin cfg0.N) :
    (iblk m c 1 t : Vec Ideal S16x8x32x256 .f32) = blockOf (tArr m c) (biOf t) (hiOf t) := by
  obtain ⟨-, -, -, -, e0, e1, e2, e3⟩ := idx_in t
  funext j
  unfold iblk
  rw [View.read_apply]
  show V m c main_arg1 _ = m ((c : Thread nD τ).loc main_arg1) _
  rw [V_main_arg1]
  refine congrArg (m ((c : Thread nD τ).loc main_arg1)) ?_
  funext a
  apply Fin.ext
  match a with
  | ⟨0, _⟩ => show win0_1.index t (0 : Fin 4) * 16 + 1 * (j 0).val = 16 * (t.val / 8) + (j 0).val; rw [e0]; omega
  | ⟨1, _⟩ => show win0_1.index t (1 : Fin 4) * 8 + 1 * (j 1).val = (j 1).val; rw [e1]; omega
  | ⟨2, _⟩ => show win0_1.index t (2 : Fin 4) * 32 + 1 * (j 2).val = 32 * (t.val % 8) + (j 2).val; rw [e2]; omega
  | ⟨3, _⟩ => show win0_1.index t (3 : Fin 4) * 256 + 1 * (j 3).val = (j 3).val; rw [e3]; omega

/-! ## The accumulation, opened -/

/-- A statistic of the blocks read at point `i` (zero past the grid's last point). -/
def statAt (A : Vec Ideal S16x8x32x256 .f32 → Vec Ideal S16x8x32x256 .f32 → FVec Ideal S16x2 .f32) (c : Dev nD) (i : ℕ) :
    S16x2.Idx → EReal :=
  if h : i < cfg0.N then A (iblk m c 0 ⟨i, h⟩) (iblk m c 1 ⟨i, h⟩) else fun _ => 0

/-- After point `n` an output buffer holds the sum of the block statistics over the row blocks 0 … n % 8 of its batch
    block: by induction on the point, a reset where the row block is 0 and one more summand elsewhere. -/
theorem accAt_sum (A : Vec Ideal S16x8x32x256 .f32 → Vec Ideal S16x8x32x256 .f32 → FVec Ideal S16x2 .f32)
    (B : Vec Ideal S16x8x32x256 .f32 → Vec Ideal S16x8x32x256 .f32 → Vec Ideal S16x2 .f32 → FVec Ideal S16x2 .f32)
    (hB : ∀ x0 x1 y, B x0 x1 y = addf (shapeCast S16x2 y shapeCasts_S16x2_S16x2) (A x0 x1)) (c : Dev nD) (j : S16x2.Idx) :
    ∀ (n : ℕ) (hn : n < cfg0.N),
      accAt m A B c n hn j = ∑ i ∈ Finset.range (n % 8 + 1), statAt m A c (8 * (n / 8) + i) j := by
  intro n
  induction n with
  | zero =>
    intro hn
    rw [show (0 % 8 + 1) = 1 from rfl, Finset.sum_range_one, show 8 * (0 / 8) + 0 = 0 from rfl]
    unfold statAt; rw [dif_pos hn]; rfl
  | succ n ih =>
    intro hn
    have hn' : n < cfg0.N := Nat.lt_of_succ_lt hn
    by_cases h0 : (n + 1) % 8 = 0
    · have e : 8 * ((n + 1) / 8) + 0 = n + 1 := by omega
      rw [h0, show (0 + 1) = 1 from rfl, Finset.sum_range_one, e]
      unfold statAt; rw [dif_pos hn]
      exact congrFun (accAt_first m A B c ⟨n + 1, hn⟩ h0) j
    · have e1 : (n + 1) % 8 = n % 8 + 1 := by omega
      have e2 : (n + 1) / 8 = n / 8 := by omega
      have e3 : 8 * (n / 8) + (n % 8 + 1) = n + 1 := by omega
      rw [e1, e2, Finset.sum_range_succ, ← ih hn', e3]
      unfold statAt; rw [dif_pos hn]
      refine (congrFun (accAt_later m A B c ⟨n + 1, hn⟩ h0) j).trans ?_
      rw [hB]
      show (shapeCast S16x2 (accAt m A B c (n + 1 - 1) _) shapeCasts_S16x2_S16x2) j + A _ _ j = _
      rw [shapeCast_self]
      rfl

/-- At the last row block of batch block `bi` the buffer holds, at (r, g), the statistic of the whole arrays at batch
    16 bi + r: the sum over the eight row blocks of the block statistic (`hA`: what the stored value is; `hsplit`: the
    256 rows are eight blocks of 32). -/
theorem acc_last_eq (A : Vec Ideal S16x8x32x256 .f32 → Vec Ideal S16x8x32x256 .f32 → FVec Ideal S16x2 .f32)
    (B : Vec Ideal S16x8x32x256 .f32 → Vec Ideal S16x8x32x256 .f32 → Vec Ideal S16x2 .f32 → FVec Ideal S16x2 .f32)
    (hB : ∀ x0 x1 y, B x0 x1 y = addf (shapeCast S16x2 y shapeCasts_S16x2_S16x2) (A x0 x1))
    (s16 : Arr 16 32 → Arr 16 32 → Fin 16 → Fin 2 → EReal) (s32 : Arr 32 256 → Arr 32 256 → Fin 32 → Fin 2 → EReal)
    (hA : ∀ X0 X1 : Vec Ideal S16x8x32x256 .f32, A X0 X1 = fun j => s16 X0 X1 (j 0) (j 1))
    (hsplit : ∀ (x t : Arr 32 256) (bi : Fin 2) (r : Fin 16) (g : Fin 2),
      ∑ hi : Fin 8, s16 (blockOf x bi hi) (blockOf t bi hi) r g = s32 x t (batchOf bi r) g)
    (c : Dev nD) (t : Fin cfg0.N) (h7 : t.val % 8 = 7) (r : Fin 16) (g : Fin 2) :
    accAt m A B c t.val t.isLt (ix2 r g) = s32 (xArr m c) (tArr m c) (batchOf (biOf t) r) g := by
  have hN : t.val < 16 := lt_of_lt_of_eq t.isLt (show cfg0.N = 16 from N_0)
  rw [accAt_sum m A B hB c (ix2 r g) t.val t.isLt, h7, ← hsplit (xArr m c) (tArr m c) (biOf t) r g,
    show (7 + 1) = 8 from rfl, ← Fin.sum_univ_eq_sum_range (fun i => statAt m A c (8 * (t.val / 8) + i) (ix2 r g)) 8]
  refine Finset.sum_congr rfl fun hi _ => ?_
  have hh : hi.val < 8 := hi.isLt
  have hlt : 8 * (t.val / 8) + hi.val < cfg0.N := lt_of_lt_of_eq (by omega : 8 * (t.val / 8) + hi.val < 16) (show 16 = cfg0.N from N_0.symm)
  have eb : biOf ⟨8 * (t.val / 8) + hi.val, hlt⟩ = biOf t :=
    Fin.ext (by show (8 * (t.val / 8) + hi.val) / 8 = t.val / 8; omega)
  have eh : hiOf ⟨8 * (t.val / 8) + hi.val, hlt⟩ = hi :=
    Fin.ext (by show (8 * (t.val / 8) + hi.val) % 8 = hi.val; omega)
  unfold statAt
  rw [dif_pos hlt, hA, iblk0_eq, iblk1_eq, eb, eh]

/-! ## The result arrays after the run -/

/-- The shape side conditions of the shared host operations, as this program states them. -/
theorem kfacts : Tail.ShapeFacts := ⟨reducesTo_S32x2_S2_d0, reducesTo_S2_S_d0, h_S_, bcast_S_S2, bcast_S_S32x2⟩

/-- Every index of a [32, 2] result array lies in the block written back after row block 7 of its batch block. -/
theorem cover2 (i : S32x2.Idx) : ∃ t : Fin cfg0.N, (cfg0.win 2).flush t = true ∧ i ∈ ((cfg0.win 2).blk t).view.set := by
  have hi0 : (i 0).val < 32 := (i 0).isLt
  have hi1 : (i 1).val < 2 := (i 1).isLt
  have hlt : 8 * ((i 0).val / 16) + 7 < cfg0.N := lt_of_lt_of_eq (by omega : 8 * ((i 0).val / 16) + 7 < 16) (show 16 = cfg0.N from N_0.symm)
  obtain ⟨e0, e1, -, -, -, -, -, -⟩ := idx_out ⟨8 * ((i 0).val / 16) + 7, hlt⟩
  refine ⟨⟨8 * ((i 0).val / 16) + 7, hlt⟩, (flush0_2 _).mpr (by show (8 * ((i 0).val / 16) + 7) % 8 = 7; omega), ?_⟩
  show i ∈ ((View.whole main_v0_0).slice (win0_2.rect ⟨8 * ((i 0).val / 16) + 7, hlt⟩)).set
  rw [View.set_slice_whole, Rect.mem_set_unit]
  intro a
  match a with
  | ⟨0, _⟩ =>
    show win0_2.index ⟨8 * ((i 0).val / 16) + 7, hlt⟩ (0 : Fin 2) * 16 ≤ (i 0).val ∧ (i 0).val < win0_2.index ⟨8 * ((i 0).val / 16) + 7, hlt⟩ (0 : Fin 2) * 16 + 16
    rw [e0]; show (8 * ((i 0).val / 16) + 7) / 8 * 16 ≤ (i 0).val ∧ (i 0).val < (8 * ((i 0).val / 16) + 7) / 8 * 16 + 16; omega
  | ⟨1, _⟩ =>
    show win0_2.index ⟨8 * ((i 0).val / 16) + 7, hlt⟩ (1 : Fin 2) * 2 ≤ (i 1).val ∧ (i 1).val < win0_2.index ⟨8 * ((i 0).val / 16) + 7, hlt⟩ (1 : Fin 2) * 2 + 2
    rw [e1]; omega

/-- What a write-back of this result window writes is the block of the cross-entropy statistic of the whole arrays. -/
theorem flushed2_eq (c : Dev nD) (t : Fin cfg0.N) (hf : (cfg0.win 2).flush t = true) :
    (dats m 0 c).flushed 2 t
      = ((cfg0.win 2).blk t).view.read (Elt Ideal) (fun j : S32x2.Idx => sBce (xArr m c) (tArr m c) (j 0) (j 1)) := by
  have h7 : t.val % 8 = 7 := (flush0_2 t).mp hf
  obtain ⟨e0, e1, -, -, -, -, -, -⟩ := idx_out t
  show (cfg0.win 2).cut (grid0.coords t) ((dats m 0 c).after 2 t) = _
  rw [after0_2]
  funext y
  obtain ⟨r, g, rfl⟩ : ∃ (r : Fin 16) (g : Fin 2), y = ix2 r g := ⟨y 0, y 1, eq_ix2 y⟩
  show accAt m A2 B2 c t.val t.isLt (ix2 r g) = sBce (xArr m c) (tArr m c) _ _
  rw [acc_last_eq m A2 B2 B2_eq sBce sBce A2_apply sBce_split c t h7 r g]
  have hb : batchOf (biOf t) r = ((cfg0.win 2).blk t).view.emb (ix2 r g) 0 :=
    Fin.ext (by show 16 * (t.val / 8) + r.val = win0_2.index t (0 : Fin 2) * 16 + 1 * r.val; rw [e0]; omega)
  have hg : g = ((cfg0.win 2).blk t).view.emb (ix2 r g) 1 :=
    Fin.ext (by show g.val = win0_2.index t (1 : Fin 2) * 2 + 1 * g.val; rw [e1]; omega)
  exact congrArg₂ (sBce (xArr m c) (tArr m c)) hb hg

/-- So this result array ends holding the cross-entropy statistic of the whole arrays at every (batch, group). -/
theorem final2 (c : Dev nD) :
    (dats m 0 c).arrAt 2 cfg0.N = fun j : S32x2.Idx => sBce (xArr m c) (tArr m c) (j 0) (j 1) :=
  (dats m 0 c).arrAt_eq_of_cover 2 _ (flushed2_eq m c) cover2

/-- Every index of a [32, 2] result array lies in the block written back after row block 7 of its batch block. -/
theorem cover3 (i : S32x2.Idx) : ∃ t : Fin cfg0.N, (cfg0.win 3).flush t = true ∧ i ∈ ((cfg0.win 3).blk t).view.set := by
  have hi0 : (i 0).val < 32 := (i 0).isLt
  have hi1 : (i 1).val < 2 := (i 1).isLt
  have hlt : 8 * ((i 0).val / 16) + 7 < cfg0.N := lt_of_lt_of_eq (by omega : 8 * ((i 0).val / 16) + 7 < 16) (show 16 = cfg0.N from N_0.symm)
  obtain ⟨-, -, e0, e1, -, -, -, -⟩ := idx_out ⟨8 * ((i 0).val / 16) + 7, hlt⟩
  refine ⟨⟨8 * ((i 0).val / 16) + 7, hlt⟩, (flush0_3 _).mpr (by show (8 * ((i 0).val / 16) + 7) % 8 = 7; omega), ?_⟩
  show i ∈ ((View.whole main_v0_1).slice (win0_3.rect ⟨8 * ((i 0).val / 16) + 7, hlt⟩)).set
  rw [View.set_slice_whole, Rect.mem_set_unit]
  intro a
  match a with
  | ⟨0, _⟩ =>
    show win0_3.index ⟨8 * ((i 0).val / 16) + 7, hlt⟩ (0 : Fin 2) * 16 ≤ (i 0).val ∧ (i 0).val < win0_3.index ⟨8 * ((i 0).val / 16) + 7, hlt⟩ (0 : Fin 2) * 16 + 16
    rw [e0]; show (8 * ((i 0).val / 16) + 7) / 8 * 16 ≤ (i 0).val ∧ (i 0).val < (8 * ((i 0).val / 16) + 7) / 8 * 16 + 16; omega
  | ⟨1, _⟩ =>
    show win0_3.index ⟨8 * ((i 0).val / 16) + 7, hlt⟩ (1 : Fin 2) * 2 ≤ (i 1).val ∧ (i 1).val < win0_3.index ⟨8 * ((i 0).val / 16) + 7, hlt⟩ (1 : Fin 2) * 2 + 2
    rw [e1]; omega

/-- What a write-back of this result window writes is the block of the masked-sum statistic of the whole arrays. -/
theorem flushed3_eq (c : Dev nD) (t : Fin cfg0.N) (hf : (cfg0.win 3).flush t = true) :
    (dats m 0 c).flushed 3 t
      = ((cfg0.win 3).blk t).view.read (Elt Ideal) (fun j : S32x2.Idx => sMsum (xArr m c) (tArr m c) (j 0) (j 1)) := by
  have h7 : t.val % 8 = 7 := (flush0_3 t).mp hf
  obtain ⟨-, -, e0, e1, -, -, -, -⟩ := idx_out t
  show (cfg0.win 3).cut (grid0.coords t) ((dats m 0 c).after 3 t) = _
  rw [after0_3]
  funext y
  obtain ⟨r, g, rfl⟩ : ∃ (r : Fin 16) (g : Fin 2), y = ix2 r g := ⟨y 0, y 1, eq_ix2 y⟩
  show accAt m A3 B3 c t.val t.isLt (ix2 r g) = sMsum (xArr m c) (tArr m c) _ _
  rw [acc_last_eq m A3 B3 B3_eq sMsum sMsum A3_apply sMsum_split c t h7 r g]
  have hb : batchOf (biOf t) r = ((cfg0.win 3).blk t).view.emb (ix2 r g) 0 :=
    Fin.ext (by show 16 * (t.val / 8) + r.val = win0_3.index t (0 : Fin 2) * 16 + 1 * r.val; rw [e0]; omega)
  have hg : g = ((cfg0.win 3).blk t).view.emb (ix2 r g) 1 :=
    Fin.ext (by show g.val = win0_3.index t (1 : Fin 2) * 2 + 1 * g.val; rw [e1]; omega)
  exact congrArg₂ (sMsum (xArr m c) (tArr m c)) hb hg

/-- So this result array ends holding the masked-sum statistic of the whole arrays at every (batch, group). -/
theorem final3 (c : Dev nD) :
    (dats m 0 c).arrAt 3 cfg0.N = fun j : S32x2.Idx => sMsum (xArr m c) (tArr m c) (j 0) (j 1) :=
  (dats m 0 c).arrAt_eq_of_cover 3 _ (flushed3_eq m c) cover3

/-- Every index of a [32, 2] result array lies in the block written back after row block 7 of its batch block. -/
theorem cover4 (i : S32x2.Idx) : ∃ t : Fin cfg0.N, (cfg0.win 4).flush t = true ∧ i ∈ ((cfg0.win 4).blk t).view.set := by
  have hi0 : (i 0).val < 32 := (i 0).isLt
  have hi1 : (i 1).val < 2 := (i 1).isLt
  have hlt : 8 * ((i 0).val / 16) + 7 < cfg0.N := lt_of_lt_of_eq (by omega : 8 * ((i 0).val / 16) + 7 < 16) (show 16 = cfg0.N from N_0.symm)
  obtain ⟨-, -, -, -, e0, e1, -, -⟩ := idx_out ⟨8 * ((i 0).val / 16) + 7, hlt⟩
  refine ⟨⟨8 * ((i 0).val / 16) + 7, hlt⟩, (flush0_4 _).mpr (by show (8 * ((i 0).val / 16) + 7) % 8 = 7; omega), ?_⟩
  show i ∈ ((View.whole main_v0_2).slice (win0_4.rect ⟨8 * ((i 0).val / 16) + 7, hlt⟩)).set
  rw [View.set_slice_whole, Rect.mem_set_unit]
  intro a
  match a with
  | ⟨0, _⟩ =>
    show win0_4.index ⟨8 * ((i 0).val / 16) + 7, hlt⟩ (0 : Fin 2) * 16 ≤ (i 0).val ∧ (i 0).val < win0_4.index ⟨8 * ((i 0).val / 16) + 7, hlt⟩ (0 : Fin 2) * 16 + 16
    rw [e0]; show (8 * ((i 0).val / 16) + 7) / 8 * 16 ≤ (i 0).val ∧ (i 0).val < (8 * ((i 0).val / 16) + 7) / 8 * 16 + 16; omega
  | ⟨1, _⟩ =>
    show win0_4.index ⟨8 * ((i 0).val / 16) + 7, hlt⟩ (1 : Fin 2) * 2 ≤ (i 1).val ∧ (i 1).val < win0_4.index ⟨8 * ((i 0).val / 16) + 7, hlt⟩ (1 : Fin 2) * 2 + 2
    rw [e1]; omega

/-- What a write-back of this result window writes is the block of the nonzero-count statistic of the whole arrays. -/
theorem flushed4_eq (c : Dev nD) (t : Fin cfg0.N) (hf : (cfg0.win 4).flush t = true) :
    (dats m 0 c).flushed 4 t
      = ((cfg0.win 4).blk t).view.read (Elt Ideal) (fun j : S32x2.Idx => sCnt (xArr m c) (tArr m c) (j 0) (j 1)) := by
  have h7 : t.val % 8 = 7 := (flush0_4 t).mp hf
  obtain ⟨-, -, -, -, e0, e1, -, -⟩ := idx_out t
  show (cfg0.win 4).cut (grid0.coords t) ((dats m 0 c).after 4 t) = _
  rw [after0_4]
  funext y
  obtain ⟨r, g, rfl⟩ : ∃ (r : Fin 16) (g : Fin 2), y = ix2 r g := ⟨y 0, y 1, eq_ix2 y⟩
  show accAt m A4 B4 c t.val t.isLt (ix2 r g) = sCnt (xArr m c) (tArr m c) _ _
  rw [acc_last_eq m A4 B4 B4_eq sCnt sCnt A4_apply sCnt_split c t h7 r g]
  have hb : batchOf (biOf t) r = ((cfg0.win 4).blk t).view.emb (ix2 r g) 0 :=
    Fin.ext (by show 16 * (t.val / 8) + r.val = win0_4.index t (0 : Fin 2) * 16 + 1 * r.val; rw [e0]; omega)
  have hg : g = ((cfg0.win 4).blk t).view.emb (ix2 r g) 1 :=
    Fin.ext (by show g.val = win0_4.index t (1 : Fin 2) * 2 + 1 * g.val; rw [e1]; omega)
  exact congrArg₂ (sCnt (xArr m c) (tArr m c)) hb hg

/-- So this result array ends holding the nonzero-count statistic of the whole arrays at every (batch, group). -/
theorem final4 (c : Dev nD) :
    (dats m 0 c).arrAt 4 cfg0.N = fun j : S32x2.Idx => sCnt (xArr m c) (tArr m c) (j 0) (j 1) :=
  (dats m 0 c).arrAt_eq_of_cover 4 _ (flushed4_eq m c) cover4

/-- Every index of a [32, 2] result array lies in the block written back after row block 7 of its batch block. -/
theorem cover5 (i : S32x2.Idx) : ∃ t : Fin cfg0.N, (cfg0.win 5).flush t = true ∧ i ∈ ((cfg0.win 5).blk t).view.set := by
  have hi0 : (i 0).val < 32 := (i 0).isLt
  have hi1 : (i 1).val < 2 := (i 1).isLt
  have hlt : 8 * ((i 0).val / 16) + 7 < cfg0.N := lt_of_lt_of_eq (by omega : 8 * ((i 0).val / 16) + 7 < 16) (show 16 = cfg0.N from N_0.symm)
  obtain ⟨-, -, -, -, -, -, e0, e1⟩ := idx_out ⟨8 * ((i 0).val / 16) + 7, hlt⟩
  refine ⟨⟨8 * ((i 0).val / 16) + 7, hlt⟩, (flush0_5 _).mpr (by show (8 * ((i 0).val / 16) + 7) % 8 = 7; omega), ?_⟩
  show i ∈ ((View.whole main_v0_3).slice (win0_5.rect ⟨8 * ((i 0).val / 16) + 7, hlt⟩)).set
  rw [View.set_slice_whole, Rect.mem_set_unit]
  intro a
  match a with
  | ⟨0, _⟩ =>
    show win0_5.index ⟨8 * ((i 0).val / 16) + 7, hlt⟩ (0 : Fin 2) * 16 ≤ (i 0).val ∧ (i 0).val < win0_5.index ⟨8 * ((i 0).val / 16) + 7, hlt⟩ (0 : Fin 2) * 16 + 16
    rw [e0]; show (8 * ((i 0).val / 16) + 7) / 8 * 16 ≤ (i 0).val ∧ (i 0).val < (8 * ((i 0).val / 16) + 7) / 8 * 16 + 16; omega
  | ⟨1, _⟩ =>
    show win0_5.index ⟨8 * ((i 0).val / 16) + 7, hlt⟩ (1 : Fin 2) * 2 ≤ (i 1).val ∧ (i 1).val < win0_5.index ⟨8 * ((i 0).val / 16) + 7, hlt⟩ (1 : Fin 2) * 2 + 2
    rw [e1]; omega

/-- What a write-back of this result window writes is the block of the norm-sum statistic of the whole arrays. -/
theorem flushed5_eq (c : Dev nD) (t : Fin cfg0.N) (hf : (cfg0.win 5).flush t = true) :
    (dats m 0 c).flushed 5 t
      = ((cfg0.win 5).blk t).view.read (Elt Ideal) (fun j : S32x2.Idx => sDn (xArr m c) (tArr m c) (j 0) (j 1)) := by
  have h7 : t.val % 8 = 7 := (flush0_5 t).mp hf
  obtain ⟨-, -, -, -, -, -, e0, e1⟩ := idx_out t
  show (cfg0.win 5).cut (grid0.coords t) ((dats m 0 c).after 5 t) = _
  rw [after0_5]
  funext y
  obtain ⟨r, g, rfl⟩ : ∃ (r : Fin 16) (g : Fin 2), y = ix2 r g := ⟨y 0, y 1, eq_ix2 y⟩
  show accAt m A5 B5 c t.val t.isLt (ix2 r g) = sDn (xArr m c) (tArr m c) _ _
  rw [acc_last_eq m A5 B5 B5_eq sDn sDn A5_apply sDn_split c t h7 r g]
  have hb : batchOf (biOf t) r = ((cfg0.win 5).blk t).view.emb (ix2 r g) 0 :=
    Fin.ext (by show 16 * (t.val / 8) + r.val = win0_5.index t (0 : Fin 2) * 16 + 1 * r.val; rw [e0]; omega)
  have hg : g = ((cfg0.win 5).blk t).view.emb (ix2 r g) 1 :=
    Fin.ext (by show g.val = win0_5.index t (1 : Fin 2) * 2 + 1 * g.val; rw [e1]; omega)
  exact congrArg₂ (sDn (xArr m c) (tArr m c)) hb hg

/-- So this result array ends holding the norm-sum statistic of the whole arrays at every (batch, group). -/
theorem final5 (c : Dev nD) :
    (dats m 0 c).arrAt 5 cfg0.N = fun j : S32x2.Idx => sDn (xArr m c) (tArr m c) (j 0) (j 1) :=
  (dats m 0 c).arrAt_eq_of_cover 5 _ (flushed5_eq m c) cover5

/-! ## The host operations after the region, and the run read -/

/-- The program's scalar result on core `c`: the shared host operations of the four statistics of the argument arrays. -/
def kres (c : Dev nD) : FVec Ideal Tail.S0 .f32 :=
  Tail.combine kfacts (Tail.maskLossK kfacts (fun j : S32x2.Idx => sBce (xArr m c) (tArr m c) (j 0) (j 1)))
    (Tail.perSample kfacts (fun j : S32x2.Idx => sMsum (xArr m c) (tArr m c) (j 0) (j 1))
      (fun j : S32x2.Idx => sCnt (xArr m c) (tArr m c) (j 0) (j 1)) (fun j : S32x2.Idx => sDn (xArr m c) (tArr m c) (j 0) (j 1)))

set_option maxHeartbeats 4000000 in
/-- What the host lines after the region leave in the result buffer: their operations, in order, of the four result arrays. -/
theorem tail_eq (c : Dev nD) :
    Pipeline.afterTail₀ cfgs (dats m) 0 (V0 m) [hostOps1, hostOps1_1, hostOps1_2] c main_v24 = kres m c := by
  have w2 : Pipeline.withArrays (cfgs 0).spec c (V0 m c) (fun w => (dats m 0 c).arrAt w (cfgs 0).N) (Proc.devRef .tc main_v0_0)
      = fun j : S32x2.Idx => sBce (xArr m c) (tArr m c) (j 0) (j 1) :=
    (Pipeline.withArrays_arr spec0 launch0.win.arr_inj c _ _ 2).trans (final2 m c)
  have w3 : Pipeline.withArrays (cfgs 0).spec c (V0 m c) (fun w => (dats m 0 c).arrAt w (cfgs 0).N) (Proc.devRef .tc main_v0_1)
      = fun j : S32x2.Idx => sMsum (xArr m c) (tArr m c) (j 0) (j 1) :=
    (Pipeline.withArrays_arr spec0 launch0.win.arr_inj c _ _ 3).trans (final3 m c)
  have w4 : Pipeline.withArrays (cfgs 0).spec c (V0 m c) (fun w => (dats m 0 c).arrAt w (cfgs 0).N) (Proc.devRef .tc main_v0_2)
      = fun j : S32x2.Idx => sCnt (xArr m c) (tArr m c) (j 0) (j 1) :=
    (Pipeline.withArrays_arr spec0 launch0.win.arr_inj c _ _ 4).trans (final4 m c)
  have w5 : Pipeline.withArrays (cfgs 0).spec c (V0 m c) (fun w => (dats m 0 c).arrAt w (cfgs 0).N) (Proc.devRef .tc main_v0_3)
      = fun j : S32x2.Idx => sDn (xArr m c) (tArr m c) (j 0) (j 1) :=
    (Pipeline.withArrays_arr spec0 launch0.win.arr_inj c _ _ 5).trans (final5 m c)
  unfold Pipeline.afterTail₀
  simp only [hostOps1, hostOps1_1, hostOps1_2, List.flatten_cons, List.flatten_nil, List.append_nil, List.cons_append, List.nil_append]
  after_results_simp
  rw [w2, w3, w4, w5]
  simp only [StableHlo.TRef.ofBuf, StableHlo.TRef.toBuf, cast_eq]
  rfl

/-- The run, read: the result buffer at the shared host operations of the four statistics, the arguments unchanged. -/
theorem run : θ_run defs (onTc (τ := τ) (main (F := Ideal))) ⟨m, fun _ => 0, ρ⟩ (fun r => ∀ c : Dev nD,
      r.2.mem ((c.tc : Thread nD τ).loc main_v24) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v24 (Pipeline.mem_restRefs_of main_v24 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Proof.KI

end
-- ==== Proof.LibReduceAxes.lean ====
import Idealize.ShloMosaic.PureOps.Ideal.Laws
import Idealize.ShloMosaic.PureOps.Reduce
import Idealize.ShloMosaic.Lib.ValueIdx

/-!
General lemmas: a host reduction of a rank-4 array over SEVERAL axes, read at an index.

* the float sum over the two trailing axes, and over axes 0, 2, 3, as the initial value plus an iterated sum over the
  reduced coordinates;
* the 32-bit integer sum over the two trailing axes of a widened one-bit mask: no partial sum can wrap (there are fewer
  than 2^31 summands, each 0 or 1), so read as a signed integer it is the number of set bits.
-/

noncomputable section

open scoped BigOperators

namespace Cert.Proof.LibReduceAxes

open Idealize.ShloMosaic Idealize.ShloMosaic.ValueIdx

section Fiber

variable {n0 n1 n2 n3 : ℕ}

/-- Dropping the two trailing axes keeps the two leading coordinates: the kept axes are 0 and 1, whatever the extents. -/
theorem drop_last2_val0 (h : (⟨4, ![n0, n1, n2, n3]⟩ : Shape).ReducesTo [2, 3] ⟨2, ![n0, n1]⟩)
    (i : (⟨4, ![n0, n1, n2, n3]⟩ : Shape).Idx) : (h.drop i 0 : ℕ) = i 0 := rfl
theorem drop_last2_val1 (h : (⟨4, ![n0, n1, n2, n3]⟩ : Shape).ReducesTo [2, 3] ⟨2, ![n0, n1]⟩)
    (i : (⟨4, ![n0, n1, n2, n3]⟩ : Shape).Idx) : (h.drop i 1 : ℕ) = i 1 := rfl
/-- Dropping axes 0, 2 and 3 keeps coordinate 1: it is the one kept axis, whatever the extents. -/
theorem drop_023_val0 (h : (⟨4, ![n0, n1, n2, n3]⟩ : Shape).ReducesTo [0, 2, 3] ⟨1, ![n1]⟩)
    (i : (⟨4, ![n0, n1, n2, n3]⟩ : Shape).Idx) : (h.drop i 0 : ℕ) = i 1 := rfl

/-- Dropping the two trailing coordinates of (a, b, c, d) leaves (a, b). -/
theorem drop_last2_ix4 (h : (⟨4, ![n0, n1, n2, n3]⟩ : Shape).ReducesTo [2, 3] ⟨2, ![n0, n1]⟩)
    (a : Fin n0) (b : Fin n1) (c : Fin n2) (d : Fin n3) : h.drop (ix4 a b c d) = ix2 a b := by
  funext e
  match e with
  | ⟨0, _⟩ => exact Fin.ext (drop_last2_val0 h (ix4 a b c d))
  | ⟨1, _⟩ => exact Fin.ext (drop_last2_val1 h (ix4 a b c d))

/-- An index that drops to (a, b) is (a, b, its third coordinate, its fourth). -/
theorem eq_ix4_of_drop_last2 (h : (⟨4, ![n0, n1, n2, n3]⟩ : Shape).ReducesTo [2, 3] ⟨2, ![n0, n1]⟩)
    (i : (⟨4, ![n0, n1, n2, n3]⟩ : Shape).Idx) (a : Fin n0) (b : Fin n1) (hi : h.drop i = ix2 a b) :
    i = ix4 a b (i 2) (i 3) := by
  have h0 : (i 0 : ℕ) = a :=
    (drop_last2_val0 h i).symm.trans (congrArg (fun j : (⟨2, ![n0, n1]⟩ : Shape).Idx => (j 0 : ℕ)) hi)
  have h1 : (i 1 : ℕ) = b :=
    (drop_last2_val1 h i).symm.trans (congrArg (fun j : (⟨2, ![n0, n1]⟩ : Shape).Idx => (j 1 : ℕ)) hi)
  funext e
  match e with
  | ⟨0, _⟩ => exact Fin.ext h0
  | ⟨1, _⟩ => exact Fin.ext h1
  | ⟨2, _⟩ => rfl
  | ⟨3, _⟩ => rfl

/-- The indices that drop to (a, b), summed, are the two trailing coordinates, summed one after the other. -/
theorem sum_fiber_last2 {M : Type*} [AddCommMonoid M]
    (h : (⟨4, ![n0, n1, n2, n3]⟩ : Shape).ReducesTo [2, 3] ⟨2, ![n0, n1]⟩)
    (x : (⟨4, ![n0, n1, n2, n3]⟩ : Shape).Idx → M) (a : Fin n0) (b : Fin n1) :
    ∑ i ∈ Finset.univ.filter (fun i => h.drop i = ix2 a b), x i = ∑ c : Fin n2, ∑ d : Fin n3, x (ix4 a b c d) := by
  refine Eq.trans ?_ (Fintype.sum_prod_type' (fun c d => x (ix4 a b c d)))
  refine Finset.sum_nbij' (fun i => ((i 2, i 3) : Fin n2 × Fin n3)) (fun p => ix4 a b p.1 p.2) ?_ ?_ ?_ ?_ ?_
  · intro i _; exact Finset.mem_univ _
  · intro p _; exact Finset.mem_filter.2 ⟨Finset.mem_univ _, drop_last2_ix4 h a b p.1 p.2⟩
  · intro i hi; exact (eq_ix4_of_drop_last2 h i a b (Finset.mem_filter.1 hi).2).symm
  · intro p _; rfl
  · intro i hi; exact congrArg x (eq_ix4_of_drop_last2 h i a b (Finset.mem_filter.1 hi).2)

/-- Dropping coordinates 0, 2 and 3 of (a, b, c, d) leaves (b). -/
theorem drop_023_ix4 (h : (⟨4, ![n0, n1, n2, n3]⟩ : Shape).ReducesTo [0, 2, 3] ⟨1, ![n1]⟩)
    (a : Fin n0) (b : Fin n1) (c : Fin n2) (d : Fin n3) : h.drop (ix4 a b c d) = ix1 b := by
  funext e
  match e with
  | ⟨0, _⟩ => exact Fin.ext (drop_023_val0 h (ix4 a b c d))

/-- An index that drops to (b) is (its first coordinate, b, its third, its fourth). -/
theorem eq_ix4_of_drop_023 (h : (⟨4, ![n0, n1, n2, n3]⟩ : Shape).ReducesTo [0, 2, 3] ⟨1, ![n1]⟩)
    (i : (⟨4, ![n0, n1, n2, n3]⟩ : Shape).Idx) (b : Fin n1) (hi : h.drop i = ix1 b) :
    i = ix4 (i 0) b (i 2) (i 3) := by
  have h1 : (i 1 : ℕ) = b :=
    (drop_023_val0 h i).symm.trans (congrArg (fun j : (⟨1, ![n1]⟩ : Shape).Idx => (j 0 : ℕ)) hi)
  funext e
  match e with
  | ⟨0, _⟩ => rfl
  | ⟨1, _⟩ => exact Fin.ext h1
  | ⟨2, _⟩ => rfl
  | ⟨3, _⟩ => rfl

/-- The indices that drop to (b), summed, are coordinates 0, 2 and 3, summed one after the other. -/
theorem sum_fiber_023 {M : Type*} [AddCommMonoid M]
    (h : (⟨4, ![n0, n1, n2, n3]⟩ : Shape).ReducesTo [0, 2, 3] ⟨1, ![n1]⟩)
    (x : (⟨4, ![n0, n1, n2, n3]⟩ : Shape).Idx → M) (b : Fin n1) :
    ∑ i ∈ Finset.univ.filter (fun i => h.drop i = ix1 b), x i
      = ∑ a : Fin n0, ∑ c : Fin n2, ∑ d : Fin n3, x (ix4 a b c d) := by
  refine Eq.trans ?_ ((Fintype.sum_prod_type' (fun a (p : Fin n2 × Fin n3) => x (ix4 a b p.1 p.2))).trans
    (Finset.sum_congr rfl fun a _ => Fintype.sum_prod_type' (fun c d => x (ix4 a b c d))))
  refine Finset.sum_nbij' (fun i => ((i 0, i 2, i 3) : Fin n0 × Fin n2 × Fin n3)) (fun p => ix4 p.1 b p.2.1 p.2.2)
    ?_ ?_ ?_ ?_ ?_
  · intro i _; exact Finset.mem_univ _
  · intro p _; exact Finset.mem_filter.2 ⟨Finset.mem_univ _, drop_023_ix4 h p.1 b p.2.1 p.2.2⟩
  · intro i hi; exact (eq_ix4_of_drop_023 h i b (Finset.mem_filter.1 hi).2).symm
  · intro p _; rfl
  · intro i hi; exact congrArg x (eq_ix4_of_drop_023 h i b (Finset.mem_filter.1 hi).2)

end Fiber

section Count

/-- A one-bit word widened to 32 bits, read as a signed integer, is its value as a natural number (0 or 1). -/
theorem toInt_setWidth_bit (v : BitVec 1) : ((v.setWidth 32).toInt : ℤ) = (v.toNat : ℤ) := by
  have hv : v.toNat < 2 := v.isLt
  have hw : (v.setWidth 32).toNat = v.toNat := BitVec.toNat_setWidth_of_le (by decide)
  rw [BitVec.toInt_eq_toNat_of_lt (by rw [hw]; omega), hw]

/-- The 32-bit sum, from zero, of one-bit words widened to 32 bits counts the set ones, as long as that count
    is below 2^32: no partial sum wraps. -/
theorem toNat_fold_addi_mask {ι : Type*} (S : Finset ι) (f : ι → BitVec 1)
    (hS : ∑ i ∈ S, (f i).toNat < 2 ^ 32) :
    (S.fold IntOp.addi 0#32 (fun i => (f i).setWidth 32)).toNat = ∑ i ∈ S, (f i).toNat := by
  induction S using Finset.cons_induction with
  | empty => rfl
  | cons a S ha ih =>
    rw [Finset.sum_cons] at hS
    have hw : ((f a).setWidth 32).toNat = (f a).toNat := BitVec.toNat_setWidth_of_le (by decide)
    rw [Finset.fold_cons, Finset.sum_cons]
    show ((f a).setWidth 32 + S.fold IntOp.addi 0#32 (fun i => (f i).setWidth 32)).toNat = _
    rw [BitVec.toNat_add, ih (by omega), hw, Nat.mod_eq_of_lt hS]

/-- A real-valued cast of a finite sum of natural numbers, in the extended reals, is the sum of the casts. -/
theorem coe_nat_sum {ι : Type*} (S : Finset ι) (f : ι → ℕ) :
    ((((∑ i ∈ S, f i : ℕ) : ℤ) : ℝ) : EReal) = ∑ i ∈ S, ((((f i : ℕ) : ℤ) : ℝ) : EReal) := by
  induction S using Finset.cons_induction with
  | empty => simp
  | cons a S ha ih => rw [Finset.sum_cons, Finset.sum_cons, Nat.cast_add, Int.cast_add, EReal.coe_add, ih]

end Count

/-- The host's float sum over the two trailing axes of a rank-4 array. -/
theorem hostReduceAdd_last2 {n0 n1 n2 n3 : ℕ}
    (h : (⟨4, ![n0, n1, n2, n3]⟩ : Shape).ReducesTo [2, 3] ⟨2, ![n0, n1]⟩)
    (x : (⟨4, ![n0, n1, n2, n3]⟩ : Shape).Idx → EReal) (init : EReal) (a : Fin n0) (b : Fin n1) :
    Ideal.hostReduceAdd h x init (ix2 a b) = init + ∑ c : Fin n2, ∑ d : Fin n3, x (ix4 a b c d) :=
  congrArg (fun s => init + s) (sum_fiber_last2 h x a b)

/-- The host's float sum over axes 0, 2 and 3 of a rank-4 array. -/
theorem hostReduceAdd_023 {n0 n1 n2 n3 : ℕ}
    (h : (⟨4, ![n0, n1, n2, n3]⟩ : Shape).ReducesTo [0, 2, 3] ⟨1, ![n1]⟩)
    (x : (⟨4, ![n0, n1, n2, n3]⟩ : Shape).Idx → EReal) (init : EReal) (b : Fin n1) :
    Ideal.hostReduceAdd h x init (ix1 b) = init + ∑ a : Fin n0, ∑ c : Fin n2, ∑ d : Fin n3, x (ix4 a b c d) :=
  congrArg (fun s => init + s) (sum_fiber_023 h x b)

/-- The host's 32-bit integer sum, from zero, over the two trailing axes of a one-bit mask widened to 32 bits, read as a
    signed integer: the number of set bits (fewer than 2^31 summands, so nothing wraps). -/
theorem hostReduce_addi_mask_last2 {n0 n1 n2 n3 : ℕ} (hsz : n2 * n3 < 2 ^ 31)
    (h : (⟨4, ![n0, n1, n2, n3]⟩ : Shape).ReducesTo [2, 3] ⟨2, ![n0, n1]⟩) {u : Shape} (hu : 0 < u.numel)
    (c : IVec ⟨4, ![n0, n1, n2, n3]⟩ 1) (h132 : 1 < 32) (init : IVec u 32) (hinit : init (Shape.Idx.first hu) = 0#32)
    (a : Fin n0) (b : Fin n1) :
    (((Host.reduce IntOp.addi (extui 32 c h132) init h hu (ix2 a b)).toInt : ℝ) : EReal)
      = ∑ i : Fin n2, ∑ j : Fin n3, (((((c (ix4 a b i j)).setWidth 32).toInt : ℝ)) : EReal) := by
  -- the number of set bits of the mask over (a, b), and its bound
  have hfib : ∑ i ∈ Finset.univ.filter (fun i => h.drop i = ix2 a b), (c i).toNat
      = ∑ i : Fin n2, ∑ j : Fin n3, (c (ix4 a b i j)).toNat := sum_fiber_last2 h (fun i => (c i).toNat) a b
  have hle : ∑ i : Fin n2, ∑ j : Fin n3, (c (ix4 a b i j)).toNat ≤ n2 * n3 := by
    refine (Finset.sum_le_sum fun i _ => Finset.sum_le_sum fun j _ =>
      (Nat.lt_succ_iff.1 (c (ix4 a b i j)).isLt : (c (ix4 a b i j)).toNat ≤ 1)).trans ?_
    simp
  -- the reduction is the fold over the indices that drop to (a, b)
  have hfold : Host.reduce IntOp.addi (extui 32 c h132) init h hu (ix2 a b)
      = (Finset.univ.filter fun i => h.drop i = ix2 a b).fold IntOp.addi 0#32 (fun i => (c i).setWidth 32) :=
    (Host.reduce_eq_fold IntOp.addi (extui 32 c h132) init h hu (ix2 a b)).trans (by rw [hinit]; rfl)
  have hnat : (Host.reduce IntOp.addi (extui 32 c h132) init h hu (ix2 a b)).toNat
      = ∑ i : Fin n2, ∑ j : Fin n3, (c (ix4 a b i j)).toNat := by
    rw [hfold, toNat_fold_addi_mask _ _ (by rw [hfib]; omega), hfib]
  have hint : ((Host.reduce IntOp.addi (extui 32 c h132) init h hu (ix2 a b)).toInt : ℤ)
      = ((∑ i : Fin n2, ∑ j : Fin n3, (c (ix4 a b i j)).toNat : ℕ) : ℤ) := by
    rw [BitVec.toInt_eq_toNat_of_lt (by rw [hnat]; omega), hnat]
  rw [hint, coe_nat_sum]
  refine Finset.sum_congr rfl fun i _ => ?_
  rw [coe_nat_sum]
  refine Finset.sum_congr rfl fun j _ => ?_
  rw [toInt_setWidth_bit]

end Cert.Proof.LibReduceAxes

end
-- ==== Proof.RefStats.lean ====
import proofs.«121299_j17265768529972_1_alg».proof.Proof.RefRead
import proofs.«121299_j17265768529972_1_alg».proof.Proof.Spec
import proofs.«121299_j17265768529972_1_alg».proof.Proof.LibReduceAxes

/-!
The reference's four intermediate arrays are the four statistics.

Its masked sum, its norm sum and its nonzero count (an integer sum converted to float) at (b, g) are the sums over rows
and columns of `masked`, `dnorm` and `ind`; its cross-entropy sum at g is the sum over batches, rows and columns of `bce`.
The reference spells the logistic function as `1 / (1 + exp (-x))`, takes each maximum with -100 on the left, and negates
the probability where the specification subtracts it from zero; over the extended reals these are the same numbers.
-/

noncomputable section

open scoped BigOperators

namespace Cert.Proof.RefStats

open Cert.ReferenceIdeal Cert.ReferenceIdeal.ReadP Cert.Proof.Spec
open Idealize.ShloMosaic Idealize.ShloMosaic.ValueIdx

variable (x0 x1 : (⟨S32x8x256x256, .f32⟩ : BufTy).Contents (Elt Ideal))

/-! ## The float word that is evaluated here: 0x3F800000 is 1 (that 0x00000000 is 0 is the library's `Ideal.ofBits_zero_f32`) -/

/-- The word 0x3F800000 denotes 1. -/
theorem ofBits_one_f32 : Ideal.ofBits .f32 0x3F800000#32 = 1 := by
  simp [Ideal.ofBits, Ideal.ieee, -EReal.coe_mul]; norm_num

/-! ## Where the reference's reshapes and slices read the two inputs -/

/-- The mask channel of group `g`: reshape to five axes, slice channel 3 of the group, drop the unit axis. -/
theorem idx_mask (b : Fin 32) (g : Fin 2) (h w : Fin 256) :
    idx_main_v0 (idx_main_v2 (idx_main_v3 (ix4 b g h w))) = ix4 b (ch g 3) h w := by
  have hb := b.isLt; have hg := g.isLt; have hh := h.isLt; have hw := w.isLt
  funext a
  refine Fin.ext ?_
  match a with
  | ⟨0, _⟩ => simp only [ix4, ch]; omega
  | ⟨1, _⟩ => simp only [ix4, ch]; omega
  | ⟨2, _⟩ => simp only [ix4, ch]; omega
  | ⟨3, _⟩ => simp only [ix4, ch]; omega

/-- Image channel `k` of group `g`: reshape to five axes, slice channels 0 to 2 of the group, at channel `k`. -/
theorem idx_image (b : Fin 32) (g : Fin 2) (h w : Fin 256) (k : Fin 3) :
    idx_main_v0 (idx_main_v26 (idx_main_v30 (ix4 b g h w) k)) = ix4 b (ch3 g k) h w := by
  have hb := b.isLt; have hg := g.isLt; have hh := h.isLt; have hw := w.isLt; have hk := k.isLt
  funext a
  refine Fin.ext ?_
  match a with
  | ⟨0, _⟩ => simp only [ix4, ch3]; omega
  | ⟨1, _⟩ => simp only [ix4, ch3]; omega
  | ⟨2, _⟩ => simp only [ix4, ch3]; omega
  | ⟨3, _⟩ => simp only [ix4, ch3]; omega

/-! ## The pointwise stages at batch `b`, group `g`, row `h`, column `w` -/

section Pointwise
variable (b : Fin 32) (g : Fin 2) (h w : Fin 256)

/-- The mask logit. -/
theorem v3_at : val_main_v3 (F := Ideal) x0 (ix4 b g h w) = x0 (ix4 b (ch g 3) h w) := by
  rw [val_main_v3_apply, val_main_v2_apply, val_main_v0_apply, idx_mask]

/-- The mask target. -/
theorem v11_at : val_main_v11 (F := Ideal) x1 (ix4 b g h w) = x1 (ix4 b (ch g 3) h w) := by
  rw [val_main_v11_apply, val_main_v10_apply, val_main_v1_apply]
  exact congrArg x1 (idx_mask b g h w)

/-- The probability: `1 / (1 + exp (-x))` is the logistic function of the mask logit. -/
theorem v9_at : val_main_v9 (F := Ideal) x0 (ix4 b g h w) = prob x0 b g h w := by
  rw [val_main_v9_apply, val_main_v8_apply, val_main_cst_0_apply, val_main_v7_apply, val_main_v6_apply, val_main_cst_apply,
    val_main_v5_apply, val_main_v4_apply, v3_at]
  show Ideal.div (Ideal.ofBits .f32 0x3F800000#32)
      (Ideal.ofBits .f32 0x3F800000#32 + Ideal.exp (-(x0 (ix4 b (ch g 3) h w)))) = _
  rw [ofBits_one_f32]
  rfl

/-- The cross-entropy term: each maximum with -100 commuted, `1 - t` as the reference writes it. -/
theorem v21_at : val_main_v21 (F := Ideal) x0 x1 (ix4 b g h w) = bce x0 x1 b g h w := by
  rw [val_main_v21_apply, val_main_v17_apply, val_main_v20_apply, val_main_v13_apply, val_main_v16_apply, val_main_v19_apply,
    val_main_v12_apply, val_main_v15_apply, val_main_v14_apply, val_main_call0_v1_apply, val_main_call0_v0_apply,
    val_main_cst_1_apply, val_main_call1_v1_apply, val_main_call1_v0_apply, val_main_cst_2_apply, val_main_v18_apply,
    val_main_cst_3_apply, v11_at, v9_at]
  show x1 (ix4 b (ch g 3) h w) * max (Ideal.ofBits .f32 0xC2C80000#32) (Ideal.log (prob x0 b g h w))
      + (Ideal.ofBits .f32 0x3F800000#32 - x1 (ix4 b (ch g 3) h w))
        * max (Ideal.ofBits .f32 0xC2C80000#32) (Ideal.log1p (-(prob x0 b g h w))) = _
  rw [max_comm, max_comm (Ideal.ofBits .f32 0xC2C80000#32) (Ideal.log1p _)]
  rfl

/-- One image channel's difference. -/
theorem v28_at (k : Fin 3) : val_main_v28 (F := Ideal) x0 x1 (idx_main_v30 (ix4 b g h w) k)
    = x0 (ix4 b (ch3 g k) h w) - x1 (ix4 b (ch3 g k) h w) := by
  rw [val_main_v28_apply, val_main_v26_apply, val_main_v27_apply, val_main_v0_apply, val_main_v1_apply]
  show x0 (idx_main_v0 (idx_main_v26 (idx_main_v30 (ix4 b g h w) k)))
      - x1 (idx_main_v0 (idx_main_v26 (idx_main_v30 (ix4 b g h w) k))) = _
  rw [idx_image]

/-- The Euclidean norm of the three-channel difference: the sum over the channel axis starts from the word 0. -/
theorem v31_at : val_main_v31 (F := Ideal) x0 x1 (ix4 b g h w) = dnorm x0 x1 b g h w := by
  rw [val_main_v31_apply, val_main_v30_apply, val_main_cst_6_apply]
  show Ideal.sqrt (Ideal.ofBits .f32 0x00000000#32
      + ∑ k : Fin 3, val_main_v29 (F := Ideal) x0 x1 (idx_main_v30 (ix4 b g h w) k)) = _
  rw [Ideal.ofBits_zero_f32, zero_add]
  unfold dnorm
  refine congrArg Ideal.sqrt (Finset.sum_congr rfl fun k _ => ?_)
  rw [val_main_v29_apply, v28_at]
  rfl

/-- The masked norm: the norm where the probability exceeds the threshold, the word 0 elsewhere. -/
theorem v34_at : val_main_v34 (F := Ideal) x0 x1 (ix4 b g h w) = masked x0 x1 b g h w := by
  rw [val_main_v34_apply, val_main_v33_apply, val_main_v32_apply, val_main_cst_7_apply, val_main_call2_v1_apply,
    val_main_call2_v0_apply, val_main_cst_8_apply, v9_at, v31_at]
  show Scalar.select (Ideal.cmp .ogt (prob x0 b g h w) (Ideal.ofBits .f32 0x3F333333#32)) (dnorm x0 x1 b g h w)
      (Ideal.ofBits .f32 0x00000000#32) = _
  rw [Ideal.ofBits_zero_f32]
  rfl

/-- The indicator "the masked norm is not zero": the unordered and the ordered "not equal" are one test over the
    extended reals. -/
theorem v36_at : val_main_v36 (F := Ideal) x0 x1 (ix4 b g h w) = ind x0 x1 b g h w := by
  rw [val_main_v36_apply, val_main_v35_apply, val_main_cst_9_apply, v34_at]
  show Ideal.cmp .une (masked x0 x1 b g h w) (Ideal.ofBits .f32 0x00000000#32) = _
  rw [Ideal.ofBits_zero_f32]
  rfl

end Pointwise

/-! ## The four statistics: each reduction read at an index, then stage by stage under the sums -/

theorem ref_msum : val_main_v40 (F := Ideal) x0 x1 = fun j => sMsum (nb := 32) (nh := 256) x0 x1 (j 0) (j 1) := by
  funext j
  obtain ⟨b, g, rfl⟩ : ∃ (b : Fin 32) (g : Fin 2), j = ix2 b g := ⟨j 0, j 1, eq_ix2 j⟩
  unfold val_main_v40
  simp only [Host.reduceAdd, Ideal.hostReduceAdd_def]
  refine (LibReduceAxes.hostReduceAdd_last2 _ _ _ b g).trans ?_
  rw [val_main_cst_10_apply]
  show Ideal.ofBits .f32 0x00000000#32 + _ = sMsum x0 x1 b g
  rw [Ideal.ofBits_zero_f32, zero_add]
  unfold sMsum
  exact Finset.sum_congr rfl fun h _ => Finset.sum_congr rfl fun w _ => v34_at x0 x1 b g h w

theorem ref_dn : val_main_v41 (F := Ideal) x0 x1 = fun j => sDn (nb := 32) (nh := 256) x0 x1 (j 0) (j 1) := by
  funext j
  obtain ⟨b, g, rfl⟩ : ∃ (b : Fin 32) (g : Fin 2), j = ix2 b g := ⟨j 0, j 1, eq_ix2 j⟩
  unfold val_main_v41
  simp only [Host.reduceAdd, Ideal.hostReduceAdd_def]
  refine (LibReduceAxes.hostReduceAdd_last2 _ _ _ b g).trans ?_
  rw [val_main_cst_11_apply]
  show Ideal.ofBits .f32 0x00000000#32 + _ = sDn x0 x1 b g
  rw [Ideal.ofBits_zero_f32, zero_add]
  unfold sDn
  exact Finset.sum_congr rfl fun h _ => Finset.sum_congr rfl fun w _ => v31_at x0 x1 b g h w

theorem ref_cnt : val_main_v39 (F := Ideal) x0 x1 = fun j => sCnt (nb := 32) (nh := 256) x0 x1 (j 0) (j 1) := by
  funext j
  obtain ⟨b, g, rfl⟩ : ∃ (b : Fin 32) (g : Fin 2), j = ix2 b g := ⟨j 0, j 1, eq_ix2 j⟩
  rw [val_main_v39_apply]
  show (((val_main_v38 (F := Ideal) x0 x1 (ix2 b g)).toInt : ℝ) : EReal) = sCnt x0 x1 b g
  unfold val_main_v38 val_main_v37
  refine (LibReduceAxes.hostReduce_addi_mask_last2 (by norm_num) _ _ (val_main_v36 (F := Ideal) x0 x1) _ _ rfl b g).trans ?_
  unfold sCnt indR
  exact Finset.sum_congr rfl fun h _ => Finset.sum_congr rfl fun w _ => by rw [v36_at]

theorem ref_bce : val_main_v22 (F := Ideal) x0 x1 = fun j => ∑ b : Fin 32, sBce (nb := 32) (nh := 256) x0 x1 b (j 0) := by
  funext j
  obtain ⟨g, rfl⟩ : ∃ g : Fin 2, j = ix1 g := ⟨j 0, eq_ix1 j⟩
  unfold val_main_v22
  simp only [Host.reduceAdd, Ideal.hostReduceAdd_def]
  refine (LibReduceAxes.hostReduceAdd_023 _ _ _ g).trans ?_
  rw [val_main_cst_4_apply]
  show Ideal.ofBits .f32 0x00000000#32 + _ = ∑ b : Fin 32, sBce x0 x1 b g
  rw [Ideal.ofBits_zero_f32, zero_add]
  refine Finset.sum_congr rfl fun b _ => ?_
  unfold sBce
  exact Finset.sum_congr rfl fun h _ => Finset.sum_congr rfl fun w _ => v21_at x0 x1 b g h w

end Cert.Proof.RefStats

end
-- ==== Proof.MaskLoss.lean ====
import proofs.«121299_j17265768529972_1_alg».proof.Proof.Tail
import Idealize.ShloMosaic.PureOps.Ideal.Laws
import Idealize.ShloMosaic.Lib.ValueIdx

/-!
The two programs' mask losses agree over the extended reals.

The kernel's program sums the cross-entropy statistic over the 32 batches, divides by 32, negates, and divides by 65536;
the reference sums over batches, rows and columns at once, divides by 2097152 = 32 · 65536, and negates. A quotient by a
nonzero real is the product with its reciprocal on every extended real, and products associate, so the two agree whatever
the sum is (no finiteness is needed).
-/

noncomputable section

open scoped BigOperators

namespace Cert.Proof.Tail

open Idealize.ShloMosaic Idealize.ShloMosaic.ValueIdx

/-- The word 0x42000000 denotes the real 32. -/
theorem ofBits_f32_32 : Ideal.ofBits .f32 0x42000000#32 = ((32 : ℝ) : EReal) := by
  simp [Ideal.ofBits, Ideal.ieee, -EReal.coe_mul]; norm_num

/-- The word 0x47800000 denotes the real 65536. -/
theorem ofBits_f32_65536 : Ideal.ofBits .f32 0x47800000#32 = ((65536 : ℝ) : EReal) := by
  simp [Ideal.ofBits, Ideal.ieee, -EReal.coe_mul]; norm_num

/-- The word 0x4A000000 denotes the real 2097152. -/
theorem ofBits_f32_2097152 : Ideal.ofBits .f32 0x4A000000#32 = ((2097152 : ℝ) : EReal) := by
  simp [Ideal.ofBits, Ideal.ieee, -EReal.coe_mul]; norm_num

/-- Dividing by 32, negating, and dividing by 65536 is dividing by 2097152 = 32 · 65536 and negating, on every extended
    real: each quotient is the product with the reciprocal, the sign moves out of a product, and products associate. -/
theorem neg_div_div (a : EReal) :
    Ideal.div (-(Ideal.div a ((32 : ℝ) : EReal))) ((65536 : ℝ) : EReal) = -(Ideal.div a ((2097152 : ℝ) : EReal)) := by
  rw [Ideal.div_coe (by norm_num : (32 : ℝ) ≠ 0), Ideal.div_coe (by norm_num : (65536 : ℝ) ≠ 0),
    Ideal.div_coe (by norm_num : (2097152 : ℝ) ≠ 0), neg_mul, mul_assoc, ← EReal.coe_mul]
  norm_num

/-- The sum over the batch axis of a [32, 2] array, from zero, at group `g`: the sum over the 32 batches. -/
theorem reduce_batches (h : S322.ReducesTo [0] S2') (s : Fin 32 → Fin 2 → EReal) (g : Fin 2) :
    Ideal.hostReduceAdd h (fun j : S322.Idx => s (j 0) (j 1)) 0 (ix1 g) = ∑ b : Fin 32, s b g := by
  rw [Ideal.hostReduceAdd_single h (by decide : S322.Reduces [0] S2') _ 0 (ix1 g), zero_add]
  rfl

theorem maskLoss_eq (hf hf' : ShapeFacts) (s : Fin 32 → Fin 2 → EReal) :
    maskLossK (F := Ideal) hf (fun j => s (j 0) (j 1)) = maskLossR (F := Ideal) hf' (fun j => ∑ b : Fin 32, s b (j 0)) := by
  funext j
  obtain ⟨g, rfl⟩ : ∃ g : Fin 2, j = ix1 g := ⟨j 0, eq_ix1 j⟩
  show Ideal.div (-(Ideal.div (Ideal.hostReduceAdd hf.r322 (fun j : S322.Idx => s (j 0) (j 1)) (Ideal.ofBits .f32 0x00000000#32) (ix1 g))
        (Ideal.ofBits .f32 0x42000000#32))) (Ideal.ofBits .f32 0x47800000#32)
      = -(Ideal.div (∑ b : Fin 32, s b g) (Ideal.ofBits .f32 0x4A000000#32))
  rw [Ideal.ofBits_zero_f32, ofBits_f32_32, ofBits_f32_65536, ofBits_f32_2097152, reduce_batches]
  exact neg_div_div _

end Cert.Proof.Tail

end
-- ==== Proof.Claims.lean ====
import proofs.«121299_j17265768529972_1_alg».proof.Defs
import proofs.«121299_j17265768529972_1_alg».proof.Proof.Gen.Pre_finite_inputs
import proofs.«121299_j17265768529972_1_alg».proof.Proof.K.Body
import proofs.«121299_j17265768529972_1_alg».proof.Proof.KI.Value
import proofs.«121299_j17265768529972_1_alg».proof.Proof.RefStats
import proofs.«121299_j17265768529972_1_alg».proof.Proof.MaskLoss

/-!
The five claims.

The three frames: the word-level kernel and its idealization run to the end, fault nowhere and leave their arguments as they
found them (the body at every grid point, the pipeline's launch around it); the reference is its run with the result dropped.
The ideal pass rewrote nothing, so there is nothing to preserve. The algebraic claim: the kernel's program ends with the shared
host operations of the four statistics (cross-entropy sum, masked sum, nonzero count, norm sum per batch and group) of
the argument arrays; the reference ends with the same operations of the same statistics, except that it sums the cross-entropy
term over batches, rows and columns at once and divides by 2097152 where the kernel's program averages over the batches
and divides by 65536 — the same extended real.
-/

noncomputable section

open scoped BigOperators

namespace Cert.Proof.Claims

open Idealize.ShloMosaic Idealize.ShloMosaic.TcCoe Idealize.SL.Sem
open Cert.Proof.Spec

/-! ## The reference's last stage -/

section Ref

open Cert.ReferenceIdeal Cert.ReferenceIdeal.Gen Cert.ReferenceIdeal.ReadP

/-- The shape side conditions of the shared host operations, as the reference states them. -/
theorem rfacts : Tail.ShapeFacts := ⟨reducesTo_S32x2_S2_d0, reducesTo_S2_S_d0, h_S_, bcast_S_S2, bcast_S_S32x2⟩

variable {F : FTy → Type} [FloatOps F]

/-- The reference's result is the shared host operations of its four intermediate arrays. -/
theorem ref_result (x0 x1 : (⟨S32x8x256x256, .f32⟩ : BufTy).Contents (Elt F)) :
    val_main_v59 (F := F) x0 x1
      = Tail.combine rfacts (Tail.maskLossR rfacts (val_main_v22 (F := F) x0 x1))
          (Tail.perSample rfacts (val_main_v40 (F := F) x0 x1) (val_main_v39 (F := F) x0 x1) (val_main_v41 (F := F) x0 x1)) := by
  unfold val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42
    val_main_v25 val_main_v24 val_main_v23
    val_main_cst_20 val_main_cst_19 val_main_cst_18 val_main_cst_17 val_main_cst_16 val_main_cst_15 val_main_cst_14 val_main_cst_13
    val_main_cst_12 val_main_cst_5
  rfl

end Ref

/-! ## The claims -/

theorem frame_k : Cert.frame_Kernel := fun m ρ _ => Cert.Proof.K.frame m ρ

theorem frame_ki : Cert.frame_KernelIdeal := fun m ρ _ => Cert.Proof.KI.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.Proof.KI.kres m c, Cert.Proof.KI.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v59_eq, (hagree c).1, (hagree c).2, ref_result,
    Cert.Proof.RefStats.ref_bce, Cert.Proof.RefStats.ref_msum, Cert.Proof.RefStats.ref_cnt, Cert.Proof.RefStats.ref_dn]
  show _ = Cert.Proof.KI.kres m c
  unfold Cert.Proof.KI.kres
  refine Eq.trans ?_ (congrArg (fun ml : FVec Ideal Tail.S2' .f32 => Tail.combine Cert.Proof.KI.kfacts ml
      (Tail.perSample Cert.Proof.KI.kfacts
        (fun j : Tail.S322.Idx => sMsum (Cert.Proof.KI.xArr m c) (Cert.Proof.KI.tArr m c) (j 0) (j 1))
        (fun j : Tail.S322.Idx => sCnt (Cert.Proof.KI.xArr m c) (Cert.Proof.KI.tArr m c) (j 0) (j 1))
        (fun j : Tail.S322.Idx => sDn (Cert.Proof.KI.xArr m c) (Cert.Proof.KI.tArr m c) (j 0) (j 1))))
    (Tail.maskLoss_eq Cert.Proof.KI.kfacts rfacts
      (fun b g => sBce (Cert.Proof.KI.xArr m c) (Cert.Proof.KI.tArr m c) b g)).symm)
  rfl

end Cert.Proof.Claims

end
-- ==== Proof.lean ====
/-
  The certificate of the masked Lp loss kernel against its reference: `Cert.Claim` from the five claims proved in
  Proof/Claims.lean. The kernel streams [16, 8, 32, 256] blocks of the two argument arrays through a 2 × 8 grid and keeps,
  per batch and channel group, four running sums over rows and columns (a cross-entropy term, a thresholded norm, its
  nonzero count, the norm); a short host epilogue turns them into the scalar loss. The reference computes the same sums
  in one piece. Over the extended reals the two are the same function of the arguments.
-/
import proofs.«121299_j17265768529972_1_alg».proof.Defs
import proofs.«121299_j17265768529972_1_alg».proof.Proof.Gen.Kernel
import proofs.«121299_j17265768529972_1_alg».proof.Proof.Gen.KernelIdeal
import proofs.«121299_j17265768529972_1_alg».proof.Proof.Gen.ReferenceIdeal
import proofs.«121299_j17265768529972_1_alg».proof.Proof.Gen.Pre_finite_inputs
import proofs.«121299_j17265768529972_1_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
